-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536 : Shape := ⟨1, ![65536]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel

variable [Facts]

def fn {F : FTy → Type} [FloatOps F] (main_arg0 : FVec F S65536x512 .f32) (main_arg1 : IVec S65536 32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  main_v3
-- ==== Kernel.lean ====
abbrev S65536x512 : Shape := ⟨2, ![65536, 512]⟩
abbrev S65536 : Shape := ⟨1, ![65536]⟩
abbrev S32768 : Shape := ⟨1, ![32768]⟩
abbrev S32768x1 : Shape := ⟨2, ![32768, 1]⟩
abbrev S2x1x1 : Shape := ⟨3, ![2, 1, 1]⟩
abbrev S1024x512 : Shape := ⟨2, ![1024, 512]⟩
abbrev S1024x1 : Shape := ⟨2, ![1024, 1]⟩
abbrev S1x1x1 : Shape := ⟨3, ![1, 1, 1]⟩
abbrev S1024 : Shape := ⟨1, ![1024]⟩
abbrev S1 : Shape := ⟨1, ![1]⟩
abbrev S1x1 : Shape := ⟨2, ![1, 1]⟩
abbrev S_ : Shape := ⟨0, ![]⟩

abbrev nBuf : Space → Nat
  | .hbm => 13
  | .vmem => 9
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S32768, .i32⟩
  | .hbm, ⟨3, _⟩ => ⟨S32768, .i32⟩
  | .hbm, ⟨4, _⟩ => ⟨S32768, .i1⟩
  | .hbm, ⟨5, _⟩ => ⟨S32768, .f32⟩
  | .hbm, ⟨6, _⟩ => ⟨S32768x1, .f32⟩
  | .hbm, ⟨7, _⟩ => ⟨S2x1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c32_i32 : BitVec 32 := 32#32
  let v1 : BitVec 32 := Scalar.addi c32_i32 v0
  let v2 : BitVec 32 := Scalar.addi v1 arg1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S65536_S32768_0 : S65536.Slices ![0] S32768
  slices_S65536_S32768_32768 : S65536.Slices ![32768] S32768
  shapeCasts_S32768_S32768x1 : S32768.ShapeCasts S32768x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1_S1 : S1024x1.Reduces [0] S1
  shapeCasts_S1_S1x1 : S1.ShapeCasts S1x1
  shapeCasts_S1x1_S1x1x1 : S1x1.ShapeCasts S1x1x1
  reducesTo_S2x1x1_S_d0_1_2 : S2x1x1.ReducesTo [0, 1, 2] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .f32 = 32 ∨ (Rect.block (s := S32768x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x512 : Shape := ⟨2, ![65536, 512]⟩
abbrev S65536 : Shape := ⟨1, ![65536]⟩
abbrev S32768x512 : Shape := ⟨2, ![32768, 512]⟩
abbrev S32768 : Shape := ⟨1, ![32768]⟩
abbrev S_ : Shape := ⟨0, ![]⟩
abbrev S1 : Shape := ⟨1, ![1]⟩

abbrev nBuf : Space → Nat
  | .hbm => 29
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536, .i32⟩
  | .hbm, ⟨2, _⟩ => ⟨S32768x512, .f32⟩
  | .hbm, ⟨3, _⟩ => ⟨S32768x512, .f32⟩
  | .hbm, ⟨4, _⟩ => ⟨S32768, .i32⟩
  | .hbm, ⟨5, _⟩ => ⟨S32768, .i32⟩
  | .hbm, ⟨6, _⟩ => ⟨S32768, .i1⟩
  | .hbm, ⟨7, _⟩ => ⟨S32768x512, .f32⟩
  | .hbm, ⟨8, _⟩ => ⟨S32768x512, .f32⟩
  | .hbm, ⟨9, _⟩ => ⟨S_, .f32⟩
  | .hbm, ⟨10, _⟩ => ⟨S32768, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S_, .f32⟩
  | .hbm, ⟨15, _⟩ => ⟨S32768, .f32⟩
  | .hbm, ⟨16, _⟩ => ⟨S32768, .f32⟩
  | .hbm, ⟨17, _⟩ => ⟨S_, .f32⟩
  | .hbm, ⟨18, _⟩ => ⟨S32768, .f32⟩
  | .hbm, ⟨19, _⟩ => ⟨S32768, .f32⟩
  | .hbm, ⟨20, _⟩ => ⟨S_, .f32⟩
  | .hbm, ⟨21, _⟩ => ⟨S32768, .f32⟩
  | .hbm, ⟨22, _⟩ => ⟨S32768, .f32⟩
  | .hbm, ⟨23, _⟩ => ⟨S32768, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_call0_cst : Ref sig .tc := ⟨.hbm, 20, rfl⟩
abbrev main_call0_v0 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  slices_S65536x512_S32768x512_0_0 : S65536x512.Slices ![0, 0] S32768x512
  slices_S65536x512_S32768x512_32768_0 : S65536x512.Slices ![32768, 0] S32768x512
  slices_S65536_S32768_0 : S65536.Slices ![0] S32768
  slices_S65536_S32768_32768 : S65536.Slices ![32768] S32768
  reducesTo_S32768x512_S32768_d1 : S32768x512.ReducesTo [1] S32768
  h_S_ : 0 < S_.numel
  bcast_S_S32768 : S_.BroadcastsInDim S32768 (![] : Fin 0 → Fin S32768.rank)
  reducesTo_S32768_S_d0 : S32768.ReducesTo [0] S_
  shapeCasts_S_S1 : S_.ShapeCasts S1

variable [Facts₀]

class Facts : Prop extends Facts₀ where

variable [Facts]
-- ==== Proof.K.Data.lean ====
/-
  The proof data of the one kernel region: a grid of 2 x 16 points, point (p, i) reading rows
  1024 (16 p + i) .. of the first half of the matrix, the same rows of the second half, and of the
  mask column; a one-word accumulator kept in scratch, set to zero where i = 0, increased by the
  block's masked sum at every point, and copied to output row p where i = 15.
-/
import proofs.«103952_j70763881169378_1_alg».proof.Proof.Gen.Kernel.Launch
import proofs.«103952_j70763881169378_1_alg».proof.Proof.Gen.Kernel.Skeleton
import proofs.«103952_j70763881169378_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The core's buffers after the five host operations before the region (the two halves of the labels, their
    comparison, its conversion to a float column). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the five operations, the region, and five more operations: it reduces to the region continued by
    the later ones, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The two conditions of the body, over the grid -/

/-- The accumulator is reset where the inner coordinate is 0: -/
abbrev condR (i : grid0.Coords) : Prop := (Scalar.cmpi .ne (Scalar.extui (Scalar.cmpi .eq (BitVec.ofNat 32 (i 1).val) 0#32)) 0#32) = 1#1
theorem hcondR : ∀ t : Fin cfg0.N, condR (grid0.coords t) ↔ t.val % 16 = 0 :=
  (by decide +kernel : ∀ t : Fin grid0.N, condR (grid0.coords t) ↔ t.val % 16 = 0)

/-- and written out where it is 15. -/
abbrev condW (i : grid0.Coords) : Prop := k0_cond2 i = 1#1
theorem hcondW : ∀ t : Fin cfg0.N, condW (grid0.coords t) ↔ t.val % 16 = 15 :=
  (by decide +kernel : ∀ t : Fin grid0.N, condW (grid0.coords t) ↔ t.val % 16 = 15)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output row is idle, and not written back, wherever the inner coordinate is not 15; -/
theorem idle3 : ∀ t : Fin cfg0.N, ¬condW (grid0.coords t) → cfg0.idle 3 (grid0.coords t) = true := by decide +kernel
theorem noFlush3 : ∀ t : Fin cfg0.N, ¬condW (grid0.coords t) → (cfg0.win 3).flush t = false := by decide +kernel
/-- and live where it is. -/
theorem live3 : ∀ t : Fin cfg0.N, condW (grid0.coords t) → cfg0.idle 3 (grid0.coords t) = false := by decide +kernel

/-! ## The staging memrefs at a point -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1 .f32 := win0_3.stage (cfg0.slots t 3)
abbrev hs3 (t : Fin cfg0.N) : (ms3 t).IsWhole := hstage0_3 ((cfg0.slots t 3).cast nbuf0_3)
/-- The accumulator's buffer. -/
abbrev scM : Memref sig .tc .vmem S1x1x1 .f32 := Memref.whole cc0_scratch0

/-! ## The blocks and the accumulator -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three input blocks at a point, at their literal types: 1024 rows of the first half, the same rows of the
    second half, and the same rows of the mask column. -/
abbrev xblk (c : Dev nD) (t : Fin cfg0.N) : Vec F S1024x512 .f32 := iblk m c 0 t
abbrev yblk (c : Dev nD) (t : Fin cfg0.N) : Vec F S1024x512 .f32 := iblk m c 1 t
abbrev mblk (c : Dev nD) (t : Fin cfg0.N) : Vec F S1024x1 .f32 := iblk m c 2 t

/-- What the accumulator holds after point `n`: the block's masked sum added to zero where the inner coordinate is 0,
    and to what the point before left elsewhere. -/
def accAt (c : Dev nD) : (n : ℕ) → n < cfg0.N → Vec F S1x1x1 .f32
  | 0, hn => k0_pay2 (xblk m c ⟨0, hn⟩) (yblk m c ⟨0, hn⟩) (mblk m c ⟨0, hn⟩) k0_pay1
  | n + 1, hn =>
    if (n + 1) % 16 = 0 then k0_pay2 (xblk m c ⟨n + 1, hn⟩) (yblk m c ⟨n + 1, hn⟩) (mblk m c ⟨n + 1, hn⟩) k0_pay1
    else k0_pay2 (xblk m c ⟨n + 1, hn⟩) (yblk m c ⟨n + 1, hn⟩) (mblk m c ⟨n + 1, hn⟩) (accAt c n (Nat.lt_of_succ_lt hn))

theorem accAt_reset (c : Dev nD) (t : Fin cfg0.N) (h : t.val % 16 = 0) :
    accAt m c t.val t.isLt = k0_pay2 (xblk m c t) (yblk m c t) (mblk m c t) k0_pay1 := by
  obtain ⟨n, hn⟩ := t
  cases n with
  | zero => rfl
  | succ n => exact if_pos h

theorem accAt_step (c : Dev nD) (t : Fin cfg0.N) (h : ¬t.val % 16 = 0) :
    accAt m c t.val t.isLt = k0_pay2 (xblk m c t) (yblk m c t) (mblk m c t)
      (accAt m c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The invariant of the class before the first point with the accumulator's buffer owned at some contents, restated. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before the first point the accumulator is at anything; before any later point at what the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as the region finds them; after the body each input's buffer at its block and the output row's at the
    accumulator; the two windows on the matrix hold it at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accAt m c t.val t.isLt := by dsimp only [dats]

/-- Each input's current staging buffer holds its block at every point: it is fetched at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

end Cert.Kernel.Hand

end
-- ==== Proof.K.Body.lean ====
/-
  The body of the kernel at a grid point, in its three cases, and the obligation the pipeline asks of it.
-/
import proofs.«103952_j70763881169378_1_alg».proof.Proof.K.Data
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-buffer loads and stores

Every load and store of the body goes through the rectangle that is the whole of its buffer, at offset zero. -/

theorem zeros_S1x1x1 : (![0, 0, 0] : Fin S1x1x1.rank → Nat) = fun _ => 0 := by funext a; fin_cases a <;> rfl
theorem zeros_S1024x512 : (![0, 0] : Fin S1024x512.rank → Nat) = fun _ => 0 := by funext a; fin_cases a <;> rfl
theorem zeros_S1024x1 : (![0, 0] : Fin S1024x1.rank → Nat) = fun _ => 0 := by funext a; fin_cases a <;> rfl

/-- What a buffer reads after a list of stores the last of which fills it: that store's payload. -/
theorem read_writes_cons_whole {sp : Space} {S : Shape} {e : EltTy} (v : View sig .tc sp S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

/-- A load of the whole of a whole buffer that reads `X` is `X`. -/
theorem readAt_whole {sp : Space} {S : Shape} {e : EltTy} (a : Memref sig .tc sp S e) (h : a.IsWhole) (X : S.Idx → Elt F e)
    {off : Fin S.rank → Nat} (hz : off = fun _ => 0) (inb : ∀ a, off a + S.size a ≤ S.size a) :
    a.view.readAt (Elt F) (Rect.unit off S.size inb).toLoadRect (h.unread X) = X :=
  (View.readAt_eq_ld a.view (h.unread X) (Rect.unit off S.size inb)).trans
    ((congrArg (fun Z => View.ld Z (Rect.unit off S.size inb)) (h.read_unread X)).trans (View.ld_unit_zero hz inb X))

/-! ## The body in its three cases, on any whole buffers

`a2`, `a3`, `a4` hold the two row blocks `x`, `y` and the mask column `mk`; `a5` is the output row's buffer, `a6` the
accumulator's. In every case the three inputs are only read. -/

set_option maxHeartbeats 1000000 in
/-- Where the inner coordinate is 0 (and so is not 15): the accumulator, at anything, is set to zero and then to the
    block's masked sum added to that zero; the output row's buffer is not touched. -/
theorem run_reset (c : Dev nD) (i : grid0.Coords)
    (a2 : Memref sig .tc .vmem S1024x512 .f32) (h2 : a2.IsWhole) (a3 : Memref sig .tc .vmem S1024x512 .f32) (h3 : a3.IsWhole)
    (a4 : Memref sig .tc .vmem S1024x1 .f32) (h4 : a4.IsWhole) (a5 : Memref sig .tc .vmem S1x1x1 .f32) (h5 : a5.IsWhole)
    (a6 : Memref sig .tc .vmem S1x1x1 .f32) (h6 : a6.IsWhole) (hR : condR i) (hW : ¬condW i)
    (x y : Vec F S1024x512 .f32) (mk : Vec F S1024x1 .f32) (o : Vec F S1x1x1 .f32) (E : Set ℕ) (K : PUnit → sProp 𝕄) :
    iprop(owns (c : Thread nD τ) a2 fullShare x ∗ owns (c : Thread nD τ) a3 fullShare y ∗ owns (c : Thread nD τ) a4 fullShare mk
        ∗ owns (c : Thread nD τ) a5 fullShare o ∗ (∃ d, owns (c : Thread nD τ) a6 fullShare d)
        ∗ (iprop(owns (c : Thread nD τ) a2 fullShare x ∗ owns (c : Thread nD τ) a3 fullShare y ∗ owns (c : Thread nD τ) a4 fullShare mk
            ∗ owns (c : Thread nD τ) a5 fullShare o ∗ owns (c : Thread nD τ) a6 fullShare (k0_pay2 x y mk k0_pay1)) -∗ K ⟨⟩))
      ⊢ wp frame (wpE (defs₀ (F := F)) Variants.none c none) E (cc0__siamese_kernel i a2 h2 a3 h3 a4 h4 a5 h5 a6 h6) K := by
  simp only [cc0__siamese_kernel_eq_skeleton]; unfold cc0__siamese_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := h2.eq_unread hf2; obtain rfl := h3.eq_unread hf3; obtain rfl := h4.eq_unread hf4
  sl_exec (disch := first | exact hR | exact hW)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  refine (read_writes_cons_whole _ _ zeros_S1x1x1 _ _ _).trans ?_
  sl_unfold_words
  rw [readAt_whole a2 h2 x zeros_S1024x512, readAt_whole a3 h3 y zeros_S1024x512, readAt_whole a4 h4 mk zeros_S1024x1,
    View.readCov_unit_zero (S := S1x1x1) a6.view zeros_S1x1x1]

set_option maxHeartbeats 1000000 in
/-- Where the inner coordinate is neither 0 nor 15: the accumulator, at `s`, ends at the block's masked sum added to
    `s`; the output row's buffer is not touched. -/
theorem run_step (c : Dev nD) (i : grid0.Coords)
    (a2 : Memref sig .tc .vmem S1024x512 .f32) (h2 : a2.IsWhole) (a3 : Memref sig .tc .vmem S1024x512 .f32) (h3 : a3.IsWhole)
    (a4 : Memref sig .tc .vmem S1024x1 .f32) (h4 : a4.IsWhole) (a5 : Memref sig .tc .vmem S1x1x1 .f32) (h5 : a5.IsWhole)
    (a6 : Memref sig .tc .vmem S1x1x1 .f32) (h6 : a6.IsWhole) (hR : ¬condR i) (hW : ¬condW i)
    (x y : Vec F S1024x512 .f32) (mk : Vec F S1024x1 .f32) (o s : Vec F S1x1x1 .f32) (E : Set ℕ) (K : PUnit → sProp 𝕄) :
    iprop(owns (c : Thread nD τ) a2 fullShare x ∗ owns (c : Thread nD τ) a3 fullShare y ∗ owns (c : Thread nD τ) a4 fullShare mk
        ∗ owns (c : Thread nD τ) a5 fullShare o ∗ owns (c : Thread nD τ) a6 fullShare s
        ∗ (iprop(owns (c : Thread nD τ) a2 fullShare x ∗ owns (c : Thread nD τ) a3 fullShare y ∗ owns (c : Thread nD τ) a4 fullShare mk
            ∗ owns (c : Thread nD τ) a5 fullShare o ∗ owns (c : Thread nD τ) a6 fullShare (k0_pay2 x y mk s)) -∗ K ⟨⟩))
      ⊢ wp frame (wpE (defs₀ (F := F)) Variants.none c none) E (cc0__siamese_kernel i a2 h2 a3 h3 a4 h4 a5 h5 a6 h6) K := by
  simp only [cc0__siamese_kernel_eq_skeleton]; unfold cc0__siamese_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := h2.eq_unread hf2; obtain rfl := h3.eq_unread hf3; obtain rfl := h4.eq_unread hf4; obtain rfl := h6.eq_unread hf6
  sl_exec (disch := first | exact hR | exact hW)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  refine (read_writes_cons_whole _ _ zeros_S1x1x1 _ _ _).trans ?_
  sl_unfold_words
  rw [readAt_whole a2 h2 x zeros_S1024x512, readAt_whole a3 h3 y zeros_S1024x512, readAt_whole a4 h4 mk zeros_S1024x1,
    readAt_whole a6 h6 s zeros_S1x1x1]

set_option maxHeartbeats 1000000 in
/-- Where the inner coordinate is 15 (and so is not 0): the accumulator, at `s`, ends at the block's masked sum added
    to `s`, and the output row's buffer, at anything, ends at the same value. -/
theorem run_write (c : Dev nD) (i : grid0.Coords)
    (a2 : Memref sig .tc .vmem S1024x512 .f32) (h2 : a2.IsWhole) (a3 : Memref sig .tc .vmem S1024x512 .f32) (h3 : a3.IsWhole)
    (a4 : Memref sig .tc .vmem S1024x1 .f32) (h4 : a4.IsWhole) (a5 : Memref sig .tc .vmem S1x1x1 .f32) (h5 : a5.IsWhole)
    (a6 : Memref sig .tc .vmem S1x1x1 .f32) (h6 : a6.IsWhole) (hR : ¬condR i) (hW : condW i)
    (x y : Vec F S1024x512 .f32) (mk : Vec F S1024x1 .f32) (s : Vec F S1x1x1 .f32) (E : Set ℕ) (K : PUnit → sProp 𝕄) :
    iprop(owns (c : Thread nD τ) a2 fullShare x ∗ owns (c : Thread nD τ) a3 fullShare y ∗ owns (c : Thread nD τ) a4 fullShare mk
        ∗ (∃ d, owns (c : Thread nD τ) a5 fullShare d) ∗ owns (c : Thread nD τ) a6 fullShare s
        ∗ (iprop(owns (c : Thread nD τ) a2 fullShare x ∗ owns (c : Thread nD τ) a3 fullShare y ∗ owns (c : Thread nD τ) a4 fullShare mk
            ∗ owns (c : Thread nD τ) a5 fullShare (k0_pay2 x y mk s) ∗ owns (c : Thread nD τ) a6 fullShare (k0_pay2 x y mk s)) -∗ K ⟨⟩))
      ⊢ wp frame (wpE (defs₀ (F := F)) Variants.none c none) E (cc0__siamese_kernel i a2 h2 a3 h3 a4 h4 a5 h5 a6 h6) K := by
  simp only [cc0__siamese_kernel_eq_skeleton]; unfold cc0__siamese_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := h2.eq_unread hf2; obtain rfl := h3.eq_unread hf3; obtain rfl := h4.eq_unread hf4; obtain rfl := h6.eq_unread hf6
  sl_exec (disch := first | exact hR | exact hW)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    refine (read_writes_cons_whole _ _ zeros_S1x1x1 _ _ _).trans ?_
    sl_unfold_words
    rw [View.readCov_unit_zero (S := S1x1x1) a6.view zeros_S1x1x1, readAt_whole a2 h2 x zeros_S1024x512, readAt_whole a3 h3 y zeros_S1024x512,
      readAt_whole a4 h4 mk zeros_S1024x1, readAt_whole a6 h6 s zeros_S1x1x1]
  iexists _; isplitr
  swap; · iexact H6
  ipureintro
  refine (read_writes_cons_whole _ _ zeros_S1x1x1 _ _ _).trans ?_
  sl_unfold_words
  rw [readAt_whole a2 h2 x zeros_S1024x512, readAt_whole a3 h3 y zeros_S1024x512, readAt_whole a4 h4 mk zeros_S1024x1,
    readAt_whole a6 h6 s zeros_S1x1x1]

/-! ## The obligation at a point -/

/-- What the body is called with at point `t`: the invariant, what the core owes, and the four current staging buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point. The three input buffers hold their blocks and are handed back as they were. Where the
    inner coordinate is 0 the accumulator, at anything (the first point) or at what the point before left, ends at
    the block's masked sum added to zero; elsewhere at that sum added to what the point before left. The output row's
    buffer is idle and handed back untouched except where the inner coordinate is 15, where it ends at the accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h0 : t.val % 16 = 0
  · -- the accumulator is reset; the output row is idle
    have hR : condR (grid0.coords t) := (hcondR t).mpr h0
    have hW : ¬condW (grid0.coords t) := fun h => by have := (hcondW t).mp h; omega
    rw [Dat.leavesExact_idle (dats m 0 c) 3 t (idle3 t hW) (noFlush3 t hW)]
    rw [accAt_reset m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply (run_reset c (grid0.coords t) (ms0 t) (hs0 t) (ms1 t) (hs1 t) (ms2 t) (hs2 t) (ms3 t) (hs3 t) scM (Memref.isWhole_whole _) hR hW
        (xblk m c t) (yblk m c t) (mblk m c t) ((dats m 0 c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply (run_reset c (grid0.coords t) (ms0 t) (hs0 t) (ms1 t) (hs1 t) (ms2 t) (hs2 t) (ms3 t) (hs3 t) scM (Memref.isWhole_whole _) hR hW
        (xblk m c t) (yblk m c t) (mblk m c t) ((dats m 0 c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hR : ¬condR (grid0.coords t) := fun h => h0 ((hcondR t).mp h)
    have hz : t.val ≠ 0 := fun e => h0 (by rw [e])
    rw [accAt_step m c t h0]
    rw [PhiS_castSucc m c t, PhiS_pos m c _ _ hz]
    by_cases h1 : t.val % 16 = 15
    · -- the accumulator is added to and copied to the output row
      have hW : condW (grid0.coords t) := (hcondW t).mpr h1
      rw [show (dats m 0 c).leavesExact 3 t = owns (c : Thread nD τ) (ms3 t) fullShare ((dats m 0 c).after 3 t) from by
        unfold Dat.leavesExact; rw [live3 t hW], after3, accAt_step m c t h0]
      iintro ⟨⟨HS, Hg⟩, Ho, ⟨%d0, H0⟩, ⟨%d1, H1⟩, ⟨%d2, H2⟩, ⟨%d3, H3⟩⟩
      iapply (run_write c (grid0.coords t) (ms0 t) (hs0 t) (ms1 t) (hs1 t) (ms2 t) (hs2 t) (ms3 t) (hs3 t) scM (Memref.isWhole_whole _) hR hW
        (xblk m c t) (yblk m c t) (mblk m c t) (accAt m c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · -- the accumulator is added to; the output row is idle
      have hW : ¬condW (grid0.coords t) := fun h => h1 ((hcondW t).mp h)
      rw [Dat.leavesExact_idle (dats m 0 c) 3 t (idle3 t hW) (noFlush3 t hW)]
      iintro ⟨⟨HS, Hg⟩, Ho, ⟨%d0, H0⟩, ⟨%d1, H1⟩, ⟨%d2, H2⟩, ⟨%d3, H3⟩⟩
      iapply (run_step c (grid0.coords t) (ms0 t) (hs0 t) (ms1 t) (hs1 t) (ms2 t) (hs2 t) (ms3 t) (hs3 t) scM (Memref.isWhole_whole _) hR hW
        (xblk m c t) (yblk m c t) (mblk m c t) ((dats m 0 c).before 3 t d3) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- At every point the body takes the invariant and the current staging buffers to the invariant of the next point and
    the buffers at what the proof data says they hold. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The run of the whole program: five host operations, the kernel region, five host operations.

  Two of the region's four windows read the same array (the matrix: its first half of rows and its second half), so the
  region holds that array at the two halves of the full share, one per window; the mask column and the output rows it
  holds whole. The five operations after the region read the output rows and write five buffers that bypass the region;
  the result is the last of them.
-/
import proofs.«103952_j70763881169378_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the five operations after the region make of the two output rows: their sum from zero, divided by 131072, as a
    vector of one entry. -/
def tailOf (o : (⟨S2x1x1, .f32⟩ : BufTy).Contents (Elt F)) : (⟨S1, .f32⟩ : BufTy).Contents (Elt F) :=
  shapeCast S1 (Host.divf (Host.reduceAdd o (constant S_ .f32 0x00000000#32) reducesTo_S2x1x1_S_d0_1_2 h_S_) (constant S_ .f32 0x48000000#32)) shapeCasts_S_S1

/-- The two output rows after the region, as the proof data computes them. -/
abbrev outRows (c : Dev nD) : (⟨S2x1x1, .f32⟩ : BufTy).Contents (Elt F) := (dats m 0 c).arrAt 3 cfg0.N

/-! ## The arguments when the region is entered -/

/-- No operation before the region writes the matrix: the region finds it as launched. -/
theorem V_arg0 (c : Dev nD) : V m c main_arg0 = m ((c.tc : Thread nD τ).loc main_arg0) := by
  dsimp only [V, V0]; simp only [hostOps0, List.flatten_cons, List.flatten_nil, List.append_nil]; after_results

/-- Nor the labels. -/
theorem V_arg1 (c : Dev nD) : V m c main_arg1 = m ((c.tc : Thread nD τ).loc main_arg1) := by
  dsimp only [V, V0]; simp only [hostOps0, List.flatten_cons, List.flatten_nil, List.append_nil]; after_results

/-- The matrix is an input of its windows: after the region it holds what it held at launch. -/
theorem arr0_final (c : Dev nD) : (dats m 0 c).arrAt 0 cfg0.N = m ((c.tc : Thread nD τ).loc main_arg0) :=
  ((dats m 0 c).arrAt_in 0 rfl _).trans ((A_eq m c 0).trans (V_arg0 m c))

/-! ## The arrays, window by window -/

/-- A window's array is a whole buffer: its points-to over the array's element set is the plain one, at the window's share. -/
theorem arr_pt (c : Dev nD) (w : Fin cfg0.W) (q : PosShare TreeShare) (hq : (dats m 0 c).share w = q)
    (X : Buf (Elt F) ((cfg0.win w).arr.view.loc (c.tc : Thread nD τ))) :
    ((cfg0.win w).arr.view.loc (c.tc : Thread nD τ) ↦[(cfg0.win w).arr.view.set]{(dats m 0 c).share w} X : sProp 𝕄)
      = (((c.tc : Thread nD τ).loc (Pipeline.arrRef spec0 w)) ↦{q} X) := by
  rw [(arr_whole0 w).set_eq_univ, hq]; try rfl

/-- The proof data's arrays at contents `X`, window by window: the matrix at the two halves of the full share, the mask
    column and the output rows at the full share. -/
theorem arrays0_eq (c : Dev nD) (X : (w : Fin cfg0.W) → Buf (Elt F) ((cfg0.win w).arr.view.loc (c.tc : Thread nD τ))) :
    ((dats m 0 c).arrays X : sProp 𝕄)
      = iprop((((c.tc : Thread nD τ).loc main_arg0) ↦{fullShare.left} X 0) ∗ (((c.tc : Thread nD τ).loc main_arg0) ↦{fullShare.right} X 1)
          ∗ (((c.tc : Thread nD τ).loc main_v4) ↦{fullShare} X 2) ∗ (((c.tc : Thread nD τ).loc main_v5) ↦{fullShare} X 3)) := by
  unfold Dat.arrays
  rw [bigSep_W0, arr_pt m c 0 fullShare.left rfl, arr_pt m c 1 fullShare.right rfl, arr_pt m c 2 fullShare rfl, arr_pt m c 3 fullShare rfl]
  try rfl

/-- The distinct buffers behind the four windows' arrays are three: the matrix, the mask column, the output rows. -/
theorem arrBufs0_eq (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v4) ↦{fullShare} W main_v4)
          ∗ (((c.tc : Thread nD τ).loc main_v5) ↦{fullShare} W main_v5)) := by
  unfold Pipeline.arrBufs
  exact bigSep_eq_bigSepL_of_eq [main_arg0, main_v4, main_v5] (by decide) (by decide) _

/-- The three buffers, whole as the launch hands them over, make the proof data's arrays at the region's entry: the
    matrix's full share splits into its two halves, one for each window that reads it. -/
theorem hsplit (c : Dev nD) :
    (Pipeline.arrBufs spec0 c (V m c) : sProp 𝕄) ⊢ (dats m 0 c).arrays ((dats m 0 c).arrAt · 0) := by
  rw [arrBufs0_eq, arrays0_eq]
  iintro ⟨H0, H4, H5⟩
  ihave H0 := (pointsTo_share (PosShare.mem_left_op_right fullShare)).1 $$ H0
  icases H0 with ⟨Hl, Hr⟩
  isplitl [Hl]; · iexact Hl
  isplitl [Hr]; · iexact Hr
  isplitl [H4]; · iexact H4
  iexact H5

/-! ## The five operations after the region -/

/-- The references the five operations after the region touch: the output rows, which they read, and the five buffers
    they write. -/
def tailS : Finset (DevRef τ sig) :=
  ([main_v5, main_cst, main_v6, main_cst_0, main_v7, main_v8] : List (Ref sig .tc)).toFinset.map
    ⟨Proc.devRef (sig := sig) (.tc : Proc τ), Proc.devRef_injective _⟩

/-- Those six buffers held whole, one by one. -/
theorem held_tailS (c : Dev nD) (W : Valuation τ sig (Elt F)) :
    (StableHlo.held (c.tc : Thread nD τ) tailS W : sProp 𝕄)
      = iprop((((c.tc : Thread nD τ).loc main_v5) ↦{fullShare} W (Proc.devRef .tc main_v5))
          ∗ (((c.tc : Thread nD τ).loc main_cst) ↦{fullShare} W (Proc.devRef .tc main_cst))
          ∗ (((c.tc : Thread nD τ).loc main_v6) ↦{fullShare} W (Proc.devRef .tc main_v6))
          ∗ (((c.tc : Thread nD τ).loc main_cst_0) ↦{fullShare} W (Proc.devRef .tc main_cst_0))
          ∗ (((c.tc : Thread nD τ).loc main_v7) ↦{fullShare} W (Proc.devRef .tc main_v7))
          ∗ (((c.tc : Thread nD τ).loc main_v8) ↦{fullShare} W (Proc.devRef .tc main_v8))) := by
  unfold StableHlo.held tailS
  rw [bigSep_map]
  exact bigSep_eq_bigSepL_of_eq [main_v5, main_cst, main_v6, main_cst_0, main_v7, main_v8] rfl (by decide) _

/-- Each of the five operations touches those six buffers only. -/
theorem hostOps1_tailS : ∀ op ∈ (hostOps1 : List (HloOp τ sig (Elt F))), op.bufs ⊆ tailS := by
  intro op hop
  simp only [List.mem_cons, List.mem_nil_iff, or_false] at hop
  rcases hop with rfl | rfl | rfl | rfl | rfl
  all_goals
    intro b hb
    simp only [StableHlo.nullary_bufs, StableHlo.binary_bufs, StableHlo.reshape_bufs, Finset.mem_insert, Finset.mem_singleton] at hb
    rcases hb with rfl | rfl | rfl <;> exact Finset.mem_map_of_mem _ (by decide)

/-- The core's buffers when the region is left: the output rows as the proof data computes them, every other buffer
    as the region found it. -/
def Wout (c : Dev nD) : Valuation τ sig (Elt F) :=
  Function.update (V0 m c) (Proc.devRef .tc main_v5) (outRows m c)

/-- There the output rows are the region's, -/
theorem Wout_v5 (c : Dev nD) : Wout m c (Proc.devRef .tc main_v5) = outRows m c := by
  unfold Wout; exact Function.update_self ..

/-- and any other buffer is as the region found it. -/
theorem Wout_ne (c : Dev nD) (r : Ref sig .tc) (h : r ≠ main_v5) : Wout m c (Proc.devRef .tc r) = V m c r := by
  unfold Wout; exact Function.update_of_ne (StableHlo.devRef_ne_of_ne h) _ _

/-- The five operations leave the output rows as they were: none writes them. -/
theorem after_v5 (c : Dev nD) : StableHlo.after hostOps1 (Wout m c) (Proc.devRef .tc main_v5) = outRows m c := by
  after_results
  exact Wout_v5 m c

/-- The result is the tail's value of the output rows. -/
theorem after_v8 (c : Dev nD) : StableHlo.after hostOps1 (Wout m c) (Proc.devRef .tc main_v8) = tailOf (outRows m c) := by
  after_results
  rw [Wout_v5]
  rfl

set_option backward.isDefEq.respectTransparency.types false in
/-- The five operations after the region: run within the output rows and the five buffers they write, they hand back the
    arrays as the region left them, the result at the tail's value of the output rows, and the second argument untouched. -/
theorem htail (c : Dev nD) (Q' : PUnit → sProp 𝕄) :
    iprop((iprop((dats m 0 c).arrays ((dats m 0 c).arrAt · cfg0.N)
            ∗ (((c.tc : Thread nD τ).loc main_v8) ↦{fullShare} (tailOf (outRows m c) : Buf (Elt F) ((c.tc : Thread nD τ).loc main_v8)))
            ∗ (((c.tc : Thread nD τ).loc main_arg1) ↦{fullShare} V m c main_arg1)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays0_eq, Pipeline.unscopedRestP_none, unscopedRest0_eq]
  iintro ⟨Hk, Hb, ⟨Hl, Hr, H4, H5⟩, ⟨H1, -, -, -, -, Hc, H6, Hc0, H7, H8⟩⟩
  iapply (Pipeline.wp_seqs_then (fun q => (cfgs q).toPCfg (Val := Elt F)) defs₀ Variants.none c tailS [] [hostOps1]
    (fun ops ho op h => by rw [List.mem_singleton.mp ho] at h; exact hostOps1_tailS op h)
    (fun ops ho op h => by rw [List.mem_singleton.mp ho] at h; exact (List.forall_iff_forall_mem.mp hostOps1_fresh) op h)
    (Wout m c)) $$ [Hb H5 Hc H6 Hc0 H7 H8]
  · rw [held_tailS, Wout_v5, Wout_ne m c main_cst (by decide), Wout_ne m c main_v6 (by decide), Wout_ne m c main_cst_0 (by decide),
      Wout_ne m c main_v7 (by decide), Wout_ne m c main_v8 (by decide)]
    isplitl [Hb]; · iexact Hb
    isplitl [H5]; · iexact H5
    isplitl [Hc]; · iexact Hc
    isplitl [H6]; · iexact H6
    isplitl [Hc0]; · iexact Hc0
    isplitl [H7]; · iexact H7
    iexact H8
  simp only [List.flatten_cons, List.flatten_nil, List.append_nil]
  rw [Pipeline.chain_nil, wp_pure, held_tailS, after_v5, after_v8]
  iintro ⟨-, H5, -, -, -, -, H8⟩
  imodintro
  iapply Hk
  isplitl [Hl Hr H4 H5]
  · isplitl [Hl]; · iexact Hl
    isplitl [Hr]; · iexact Hr
    isplitl [H4]; · iexact H4
    iexact H5
  isplitl [H8]; · iexact H8
  iexact H1

/-! ## The region's invariant at its two ends -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

/-! ## The run -/

set_option backward.isDefEq.respectTransparency.types false in
/-- Every weakly fair execution of the program terminates without a fault; the result is the host tail's value of the
    output rows, and both arguments end as they began. -/
theorem run_main : θ_run defs (onTc (τ := τ) (main (F := F))) ⟨m, fun _ => 0, ρ⟩ (fun r => ∀ c : Dev nD,
    r.2.mem ((c.tc : Thread nD τ).loc main_v8) = tailOf (outRows m c)
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  classical
  unfold defs
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => iprop((((c.tc : Thread nD τ).loc main_v8) ↦{fullShare} (tailOf (outRows m c) : Buf (Elt F) ((c.tc : Thread nD τ).loc main_v8)))
      ∗ (((c.tc : Thread nD τ).loc main_arg1) ↦{fullShare} V m c main_arg1)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c.tc : Thread nD τ).loc main_v8) = tailOf (outRows m c) ∧ s.mem ((c.tc : Thread nD τ).loc main_arg1) = V m c main_arg1)
    (hY := fun c s' => by
      iintro ⟨-, ⟨H8, H1⟩, HSI⟩
      icombine HSI H8 gives %h8
      icombine HSI H1 gives %h1
      imodintro
      isplitr; · ipureintro; exact ⟨Buf.eq_of_forall_mem_univ h8, Buf.eq_of_forall_mem_univ h1⟩
      iexact HSI)
    (hQ := fun s h c => ⟨(h c).2.2.1, ((h c).1 0).trans (arr0_final m c), (h c).2.2.2.trans (V_arg1 m c)⟩)

end Cert.Kernel.Hand
end
-- ==== Proof.KI.Data.lean ====
/-
  The proof data of the one kernel region: a grid of 2 x 16 points, point (p, i) reading rows
  1024 (16 p + i) .. of the first half of the matrix, the same rows of the second half, and of the
  mask column; a one-word accumulator kept in scratch, set to zero where i = 0, increased by the
  block's masked sum at every point, and copied to output row p where i = 15.
-/
import proofs.«103952_j70763881169378_1_alg».proof.Proof.Gen.KernelIdeal.Launch
import proofs.«103952_j70763881169378_1_alg».proof.Proof.Gen.KernelIdeal.Skeleton
import proofs.«103952_j70763881169378_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- The core's buffers after the five host operations before the region (the two halves of the labels, their
    comparison, its conversion to a float column). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is the five operations, the region, and five more operations: it reduces to the region continued by
    the later ones, at the contents the earlier ones leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The two conditions of the body, over the grid -/

/-- The accumulator is reset where the inner coordinate is 0: -/
abbrev condR (i : grid0.Coords) : Prop := (Scalar.cmpi .ne (Scalar.extui (Scalar.cmpi .eq (BitVec.ofNat 32 (i 1).val) 0#32)) 0#32) = 1#1
theorem hcondR : ∀ t : Fin cfg0.N, condR (grid0.coords t) ↔ t.val % 16 = 0 :=
  (by decide +kernel : ∀ t : Fin grid0.N, condR (grid0.coords t) ↔ t.val % 16 = 0)

/-- and written out where it is 15. -/
abbrev condW (i : grid0.Coords) : Prop := k0_cond2 i = 1#1
theorem hcondW : ∀ t : Fin cfg0.N, condW (grid0.coords t) ↔ t.val % 16 = 15 :=
  (by decide +kernel : ∀ t : Fin grid0.N, condW (grid0.coords t) ↔ t.val % 16 = 15)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output row is idle, and not written back, wherever the inner coordinate is not 15; -/
theorem idle3 : ∀ t : Fin cfg0.N, ¬condW (grid0.coords t) → cfg0.idle 3 (grid0.coords t) = true := by decide +kernel
theorem noFlush3 : ∀ t : Fin cfg0.N, ¬condW (grid0.coords t) → (cfg0.win 3).flush t = false := by decide +kernel
/-- and live where it is. -/
theorem live3 : ∀ t : Fin cfg0.N, condW (grid0.coords t) → cfg0.idle 3 (grid0.coords t) = false := by decide +kernel

/-! ## The staging memrefs at a point -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1 .f32 := win0_3.stage (cfg0.slots t 3)
abbrev hs3 (t : Fin cfg0.N) : (ms3 t).IsWhole := hstage0_3 ((cfg0.slots t 3).cast nbuf0_3)
/-- The accumulator's buffer. -/
abbrev scM : Memref sig .tc .vmem S1x1x1 .f32 := Memref.whole cc0_scratch0

/-! ## The blocks and the accumulator -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three input blocks at a point, at their literal types: 1024 rows of the first half, the same rows of the
    second half, and the same rows of the mask column. -/
abbrev xblk (c : Dev nD) (t : Fin cfg0.N) : Vec F S1024x512 .f32 := iblk m c 0 t
abbrev yblk (c : Dev nD) (t : Fin cfg0.N) : Vec F S1024x512 .f32 := iblk m c 1 t
abbrev mblk (c : Dev nD) (t : Fin cfg0.N) : Vec F S1024x1 .f32 := iblk m c 2 t

/-- What the accumulator holds after point `n`: the block's masked sum added to zero where the inner coordinate is 0,
    and to what the point before left elsewhere. -/
def accAt (c : Dev nD) : (n : ℕ) → n < cfg0.N → Vec F S1x1x1 .f32
  | 0, hn => k0_pay2 (xblk m c ⟨0, hn⟩) (yblk m c ⟨0, hn⟩) (mblk m c ⟨0, hn⟩) k0_pay1
  | n + 1, hn =>
    if (n + 1) % 16 = 0 then k0_pay2 (xblk m c ⟨n + 1, hn⟩) (yblk m c ⟨n + 1, hn⟩) (mblk m c ⟨n + 1, hn⟩) k0_pay1
    else k0_pay2 (xblk m c ⟨n + 1, hn⟩) (yblk m c ⟨n + 1, hn⟩) (mblk m c ⟨n + 1, hn⟩) (accAt c n (Nat.lt_of_succ_lt hn))

theorem accAt_reset (c : Dev nD) (t : Fin cfg0.N) (h : t.val % 16 = 0) :
    accAt m c t.val t.isLt = k0_pay2 (xblk m c t) (yblk m c t) (mblk m c t) k0_pay1 := by
  obtain ⟨n, hn⟩ := t
  cases n with
  | zero => rfl
  | succ n => exact if_pos h

theorem accAt_step (c : Dev nD) (t : Fin cfg0.N) (h : ¬t.val % 16 = 0) :
    accAt m c t.val t.isLt = k0_pay2 (xblk m c t) (yblk m c t) (mblk m c t)
      (accAt m c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The invariant of the class before the first point with the accumulator's buffer owned at some contents, restated. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before the first point the accumulator is at anything; before any later point at what the point before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- The arrays as the region finds them; after the body each input's buffer at its block and the output row's at the
    accumulator; the two windows on the matrix hold it at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accAt m c t.val t.isLt := by dsimp only [dats]

/-- Each input's current staging buffer holds its block at every point: it is fetched at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

end Cert.KernelIdeal.Hand

end
-- ==== Proof.KI.Body.lean ====
/-
  The body of the kernel at a grid point, in its three cases, and the obligation the pipeline asks of it.
-/
import proofs.«103952_j70763881169378_1_alg».proof.Proof.KI.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-buffer loads and stores

Every load and store of the body goes through the rectangle that is the whole of its buffer, at offset zero. -/

theorem zeros_S1x1x1 : (![0, 0, 0] : Fin S1x1x1.rank → Nat) = fun _ => 0 := by funext a; fin_cases a <;> rfl
theorem zeros_S1024x512 : (![0, 0] : Fin S1024x512.rank → Nat) = fun _ => 0 := by funext a; fin_cases a <;> rfl
theorem zeros_S1024x1 : (![0, 0] : Fin S1024x1.rank → Nat) = fun _ => 0 := by funext a; fin_cases a <;> rfl

/-- What a buffer reads after a list of stores the last of which fills it: that store's payload. -/
theorem read_writes_cons_whole {sp : Space} {S : Shape} {e : EltTy} (v : View sig .tc sp S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero hz inb y⟩)).trans
    (View.canon_cons_unit_zero hz inb w L)

/-- A load of the whole of a whole buffer that reads `X` is `X`. -/
theorem readAt_whole {sp : Space} {S : Shape} {e : EltTy} (a : Memref sig .tc sp S e) (h : a.IsWhole) (X : S.Idx → Elt F e)
    {off : Fin S.rank → Nat} (hz : off = fun _ => 0) (inb : ∀ a, off a + S.size a ≤ S.size a) :
    a.view.readAt (Elt F) (Rect.unit off S.size inb).toLoadRect (h.unread X) = X :=
  (View.readAt_eq_ld a.view (h.unread X) (Rect.unit off S.size inb)).trans
    ((congrArg (fun Z => View.ld Z (Rect.unit off S.size inb)) (h.read_unread X)).trans (View.ld_unit_zero hz inb X))

/-! ## The body in its three cases, on any whole buffers

`a2`, `a3`, `a4` hold the two row blocks `x`, `y` and the mask column `mk`; `a5` is the output row's buffer, `a6` the
accumulator's. In every case the three inputs are only read. -/

set_option maxHeartbeats 1000000 in
/-- Where the inner coordinate is 0 (and so is not 15): the accumulator, at anything, is set to zero and then to the
    block's masked sum added to that zero; the output row's buffer is not touched. -/
theorem run_reset (c : Dev nD) (i : grid0.Coords)
    (a2 : Memref sig .tc .vmem S1024x512 .f32) (h2 : a2.IsWhole) (a3 : Memref sig .tc .vmem S1024x512 .f32) (h3 : a3.IsWhole)
    (a4 : Memref sig .tc .vmem S1024x1 .f32) (h4 : a4.IsWhole) (a5 : Memref sig .tc .vmem S1x1x1 .f32) (h5 : a5.IsWhole)
    (a6 : Memref sig .tc .vmem S1x1x1 .f32) (h6 : a6.IsWhole) (hR : condR i) (hW : ¬condW i)
    (x y : Vec F S1024x512 .f32) (mk : Vec F S1024x1 .f32) (o : Vec F S1x1x1 .f32) (E : Set ℕ) (K : PUnit → sProp 𝕄) :
    iprop(owns (c : Thread nD τ) a2 fullShare x ∗ owns (c : Thread nD τ) a3 fullShare y ∗ owns (c : Thread nD τ) a4 fullShare mk
        ∗ owns (c : Thread nD τ) a5 fullShare o ∗ (∃ d, owns (c : Thread nD τ) a6 fullShare d)
        ∗ (iprop(owns (c : Thread nD τ) a2 fullShare x ∗ owns (c : Thread nD τ) a3 fullShare y ∗ owns (c : Thread nD τ) a4 fullShare mk
            ∗ owns (c : Thread nD τ) a5 fullShare o ∗ owns (c : Thread nD τ) a6 fullShare (k0_pay2 x y mk k0_pay1)) -∗ K ⟨⟩))
      ⊢ wp frame (wpE (defs₀ (F := F)) Variants.none c none) E (cc0__siamese_kernel i a2 h2 a3 h3 a4 h4 a5 h5 a6 h6) K := by
  simp only [cc0__siamese_kernel_eq_skeleton]; unfold cc0__siamese_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  obtain rfl := h2.eq_unread hf2; obtain rfl := h3.eq_unread hf3; obtain rfl := h4.eq_unread hf4
  sl_exec (disch := first | exact hR | exact hW)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  refine (read_writes_cons_whole _ _ zeros_S1x1x1 _ _ _).trans ?_
  sl_unfold_words
  rw [readAt_whole a2 h2 x zeros_S1024x512, readAt_whole a3 h3 y zeros_S1024x512, readAt_whole a4 h4 mk zeros_S1024x1,
    View.readCov_unit_zero (S := S1x1x1) a6.view zeros_S1x1x1]

set_option maxHeartbeats 1000000 in
/-- Where the inner coordinate is neither 0 nor 15: the accumulator, at `s`, ends at the block's masked sum added to
    `s`; the output row's buffer is not touched. -/
theorem run_step (c : Dev nD) (i : grid0.Coords)
    (a2 : Memref sig .tc .vmem S1024x512 .f32) (h2 : a2.IsWhole) (a3 : Memref sig .tc .vmem S1024x512 .f32) (h3 : a3.IsWhole)
    (a4 : Memref sig .tc .vmem S1024x1 .f32) (h4 : a4.IsWhole) (a5 : Memref sig .tc .vmem S1x1x1 .f32) (h5 : a5.IsWhole)
    (a6 : Memref sig .tc .vmem S1x1x1 .f32) (h6 : a6.IsWhole) (hR : ¬condR i) (hW : ¬condW i)
    (x y : Vec F S1024x512 .f32) (mk : Vec F S1024x1 .f32) (o s : Vec F S1x1x1 .f32) (E : Set ℕ) (K : PUnit → sProp 𝕄) :
    iprop(owns (c : Thread nD τ) a2 fullShare x ∗ owns (c : Thread nD τ) a3 fullShare y ∗ owns (c : Thread nD τ) a4 fullShare mk
        ∗ owns (c : Thread nD τ) a5 fullShare o ∗ owns (c : Thread nD τ) a6 fullShare s
        ∗ (iprop(owns (c : Thread nD τ) a2 fullShare x ∗ owns (c : Thread nD τ) a3 fullShare y ∗ owns (c : Thread nD τ) a4 fullShare mk
            ∗ owns (c : Thread nD τ) a5 fullShare o ∗ owns (c : Thread nD τ) a6 fullShare (k0_pay2 x y mk s)) -∗ K ⟨⟩))
      ⊢ wp frame (wpE (defs₀ (F := F)) Variants.none c none) E (cc0__siamese_kernel i a2 h2 a3 h3 a4 h4 a5 h5 a6 h6) K := by
  simp only [cc0__siamese_kernel_eq_skeleton]; unfold cc0__siamese_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  obtain rfl := h2.eq_unread hf2; obtain rfl := h3.eq_unread hf3; obtain rfl := h4.eq_unread hf4; obtain rfl := h6.eq_unread hf6
  sl_exec (disch := first | exact hR | exact hW)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  refine (read_writes_cons_whole _ _ zeros_S1x1x1 _ _ _).trans ?_
  sl_unfold_words
  rw [readAt_whole a2 h2 x zeros_S1024x512, readAt_whole a3 h3 y zeros_S1024x512, readAt_whole a4 h4 mk zeros_S1024x1,
    readAt_whole a6 h6 s zeros_S1x1x1]

set_option maxHeartbeats 1000000 in
/-- Where the inner coordinate is 15 (and so is not 0): the accumulator, at `s`, ends at the block's masked sum added
    to `s`, and the output row's buffer, at anything, ends at the same value. -/
theorem run_write (c : Dev nD) (i : grid0.Coords)
    (a2 : Memref sig .tc .vmem S1024x512 .f32) (h2 : a2.IsWhole) (a3 : Memref sig .tc .vmem S1024x512 .f32) (h3 : a3.IsWhole)
    (a4 : Memref sig .tc .vmem S1024x1 .f32) (h4 : a4.IsWhole) (a5 : Memref sig .tc .vmem S1x1x1 .f32) (h5 : a5.IsWhole)
    (a6 : Memref sig .tc .vmem S1x1x1 .f32) (h6 : a6.IsWhole) (hR : ¬condR i) (hW : condW i)
    (x y : Vec F S1024x512 .f32) (mk : Vec F S1024x1 .f32) (s : Vec F S1x1x1 .f32) (E : Set ℕ) (K : PUnit → sProp 𝕄) :
    iprop(owns (c : Thread nD τ) a2 fullShare x ∗ owns (c : Thread nD τ) a3 fullShare y ∗ owns (c : Thread nD τ) a4 fullShare mk
        ∗ (∃ d, owns (c : Thread nD τ) a5 fullShare d) ∗ owns (c : Thread nD τ) a6 fullShare s
        ∗ (iprop(owns (c : Thread nD τ) a2 fullShare x ∗ owns (c : Thread nD τ) a3 fullShare y ∗ owns (c : Thread nD τ) a4 fullShare mk
            ∗ owns (c : Thread nD τ) a5 fullShare (k0_pay2 x y mk s) ∗ owns (c : Thread nD τ) a6 fullShare (k0_pay2 x y mk s)) -∗ K ⟨⟩))
      ⊢ wp frame (wpE (defs₀ (F := F)) Variants.none c none) E (cc0__siamese_kernel i a2 h2 a3 h3 a4 h4 a5 h5 a6 h6) K := by
  simp only [cc0__siamese_kernel_eq_skeleton]; unfold cc0__siamese_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := h2.eq_unread hf2; obtain rfl := h3.eq_unread hf3; obtain rfl := h4.eq_unread hf4; obtain rfl := h6.eq_unread hf6
  sl_exec (disch := first | exact hR | exact hW)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    refine (read_writes_cons_whole _ _ zeros_S1x1x1 _ _ _).trans ?_
    sl_unfold_words
    rw [View.readCov_unit_zero (S := S1x1x1) a6.view zeros_S1x1x1, readAt_whole a2 h2 x zeros_S1024x512, readAt_whole a3 h3 y zeros_S1024x512,
      readAt_whole a4 h4 mk zeros_S1024x1, readAt_whole a6 h6 s zeros_S1x1x1]
  iexists _; isplitr
  swap; · iexact H6
  ipureintro
  refine (read_writes_cons_whole _ _ zeros_S1x1x1 _ _ _).trans ?_
  sl_unfold_words
  rw [readAt_whole a2 h2 x zeros_S1024x512, readAt_whole a3 h3 y zeros_S1024x512, readAt_whole a4 h4 mk zeros_S1024x1,
    readAt_whole a6 h6 s zeros_S1x1x1]

/-! ## The obligation at a point -/

/-- What the body is called with at point `t`: the invariant, what the core owes, and the four current staging buffers. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point. The three input buffers hold their blocks and are handed back as they were. Where the
    inner coordinate is 0 the accumulator, at anything (the first point) or at what the point before left, ends at
    the block's masked sum added to zero; elsewhere at that sum added to what the point before left. The output row's
    buffer is idle and handed back untouched except where the inner coordinate is 15, where it ends at the accumulator. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  by_cases h0 : t.val % 16 = 0
  · -- the accumulator is reset; the output row is idle
    have hR : condR (grid0.coords t) := (hcondR t).mpr h0
    have hW : ¬condW (grid0.coords t) := fun h => by have := (hcondW t).mp h; omega
    rw [Dat.leavesExact_idle (dats m 0 c) 3 t (idle3 t hW) (noFlush3 t hW)]
    rw [accAt_reset m c t h0]
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply (run_reset c (grid0.coords t) (ms0 t) (hs0 t) (ms1 t) (hs1 t) (ms2 t) (hs2 t) (ms3 t) (hs3 t) scM (Memref.isWhole_whole _) hR hW
        (xblk m c t) (yblk m c t) (mblk m c t) ((dats m 0 c).before 3 t d3) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨HS, Hg⟩, Ho, ⟨%d0, H0⟩, ⟨%d1, H1⟩, ⟨%d2, H2⟩, ⟨%d3, H3⟩⟩
      iapply (run_reset c (grid0.coords t) (ms0 t) (hs0 t) (ms1 t) (hs1 t) (ms2 t) (hs2 t) (ms3 t) (hs3 t) scM (Memref.isWhole_whole _) hR hW
        (xblk m c t) (yblk m c t) (mblk m c t) ((dats m 0 c).before 3 t d3) Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3
  · have hR : ¬condR (grid0.coords t) := fun h => h0 ((hcondR t).mp h)
    have hz : t.val ≠ 0 := fun e => h0 (by rw [e])
    rw [accAt_step m c t h0]
    rw [PhiS_castSucc m c t, PhiS_pos m c _ _ hz]
    by_cases h1 : t.val % 16 = 15
    · -- the accumulator is added to and copied to the output row
      have hW : condW (grid0.coords t) := (hcondW t).mpr h1
      rw [show (dats m 0 c).leavesExact 3 t = owns (c : Thread nD τ) (ms3 t) fullShare ((dats m 0 c).after 3 t) from by
        unfold Dat.leavesExact; rw [live3 t hW], after3, accAt_step m c t h0]
      iintro ⟨⟨HS, Hg⟩, Ho, ⟨%d0, H0⟩, ⟨%d1, H1⟩, ⟨%d2, H2⟩, ⟨%d3, H3⟩⟩
      iapply (run_write c (grid0.coords t) (ms0 t) (hs0 t) (ms1 t) (hs1 t) (ms2 t) (hs2 t) (ms3 t) (hs3 t) scM (Memref.isWhole_whole _) hR hW
        (xblk m c t) (yblk m c t) (mblk m c t) (accAt m c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexact H3
    · -- the accumulator is added to; the output row is idle
      have hW : ¬condW (grid0.coords t) := fun h => h1 ((hcondW t).mp h)
      rw [Dat.leavesExact_idle (dats m 0 c) 3 t (idle3 t hW) (noFlush3 t hW)]
      iintro ⟨⟨HS, Hg⟩, Ho, ⟨%d0, H0⟩, ⟨%d1, H1⟩, ⟨%d2, H2⟩, ⟨%d3, H3⟩⟩
      iapply (run_step c (grid0.coords t) (ms0 t) (hs0 t) (ms1 t) (hs1 t) (ms2 t) (hs2 t) (ms3 t) (hs3 t) scM (Memref.isWhole_whole _) hR hW
        (xblk m c t) (yblk m c t) (mblk m c t) ((dats m 0 c).before 3 t d3) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hg]
      · isplitl [HS]; · iexact HS
        iexact Hg
      isplitl [Ho]; · iexact Ho
      isplitl [H0]; · iexact H0
      isplitl [H1]; · iexact H1
      isplitl [H2]; · iexact H2
      iexists _; iexact H3

/-- At every point the body takes the invariant and the current staging buffers to the invariant of the next point and
    the buffers at what the proof data says they hold. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The run of the whole program: five host operations, the kernel region, five host operations.

  Two of the region's four windows read the same array (the matrix: its first half of rows and its second half), so the
  region holds that array at the two halves of the full share, one per window; the mask column and the output rows it
  holds whole. The five operations after the region read the output rows and write five buffers that bypass the region;
  the result is the last of them.
-/
import proofs.«103952_j70763881169378_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the five operations after the region make of the two output rows: their sum from zero, divided by 131072, as a
    vector of one entry. -/
def tailOf (o : (⟨S2x1x1, .f32⟩ : BufTy).Contents (Elt F)) : (⟨S1, .f32⟩ : BufTy).Contents (Elt F) :=
  shapeCast S1 (Host.divf (Host.reduceAdd o (constant S_ .f32 0x00000000#32) reducesTo_S2x1x1_S_d0_1_2 h_S_) (constant S_ .f32 0x48000000#32)) shapeCasts_S_S1

/-- The two output rows after the region, as the proof data computes them. -/
abbrev outRows (c : Dev nD) : (⟨S2x1x1, .f32⟩ : BufTy).Contents (Elt F) := (dats m 0 c).arrAt 3 cfg0.N

/-! ## The arguments when the region is entered -/

/-- No operation before the region writes the matrix: the region finds it as launched. -/
theorem V_arg0 (c : Dev nD) : V m c main_arg0 = m ((c.tc : Thread nD τ).loc main_arg0) := by
  dsimp only [V, V0]; simp only [hostOps0, List.flatten_cons, List.flatten_nil, List.append_nil]; after_results

/-- Nor the labels. -/
theorem V_arg1 (c : Dev nD) : V m c main_arg1 = m ((c.tc : Thread nD τ).loc main_arg1) := by
  dsimp only [V, V0]; simp only [hostOps0, List.flatten_cons, List.flatten_nil, List.append_nil]; after_results

/-- The matrix is an input of its windows: after the region it holds what it held at launch. -/
theorem arr0_final (c : Dev nD) : (dats m 0 c).arrAt 0 cfg0.N = m ((c.tc : Thread nD τ).loc main_arg0) :=
  ((dats m 0 c).arrAt_in 0 rfl _).trans ((A_eq m c 0).trans (V_arg0 m c))

/-! ## The arrays, window by window -/

/-- A window's array is a whole buffer: its points-to over the array's element set is the plain one, at the window's share. -/
theorem arr_pt (c : Dev nD) (w : Fin cfg0.W) (q : PosShare TreeShare) (hq : (dats m 0 c).share w = q)
    (X : Buf (Elt F) ((cfg0.win w).arr.view.loc (c.tc : Thread nD τ))) :
    ((cfg0.win w).arr.view.loc (c.tc : Thread nD τ) ↦[(cfg0.win w).arr.view.set]{(dats m 0 c).share w} X : sProp 𝕄)
      = (((c.tc : Thread nD τ).loc (Pipeline.arrRef spec0 w)) ↦{q} X) := by
  rw [(arr_whole0 w).set_eq_univ, hq]; try rfl

/-- The proof data's arrays at contents `X`, window by window: the matrix at the two halves of the full share, the mask
    column and the output rows at the full share. -/
theorem arrays0_eq (c : Dev nD) (X : (w : Fin cfg0.W) → Buf (Elt F) ((cfg0.win w).arr.view.loc (c.tc : Thread nD τ))) :
    ((dats m 0 c).arrays X : sProp 𝕄)
      = iprop((((c.tc : Thread nD τ).loc main_arg0) ↦{fullShare.left} X 0) ∗ (((c.tc : Thread nD τ).loc main_arg0) ↦{fullShare.right} X 1)
          ∗ (((c.tc : Thread nD τ).loc main_v4) ↦{fullShare} X 2) ∗ (((c.tc : Thread nD τ).loc main_v5) ↦{fullShare} X 3)) := by
  unfold Dat.arrays
  rw [bigSep_W0, arr_pt m c 0 fullShare.left rfl, arr_pt m c 1 fullShare.right rfl, arr_pt m c 2 fullShare rfl, arr_pt m c 3 fullShare rfl]
  try rfl

/-- The distinct buffers behind the four windows' arrays are three: the matrix, the mask column, the output rows. -/
theorem arrBufs0_eq (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v4) ↦{fullShare} W main_v4)
          ∗ (((c.tc : Thread nD τ).loc main_v5) ↦{fullShare} W main_v5)) := by
  unfold Pipeline.arrBufs
  exact bigSep_eq_bigSepL_of_eq [main_arg0, main_v4, main_v5] (by decide) (by decide) _

/-- The three buffers, whole as the launch hands them over, make the proof data's arrays at the region's entry: the
    matrix's full share splits into its two halves, one for each window that reads it. -/
theorem hsplit (c : Dev nD) :
    (Pipeline.arrBufs spec0 c (V m c) : sProp 𝕄) ⊢ (dats m 0 c).arrays ((dats m 0 c).arrAt · 0) := by
  rw [arrBufs0_eq, arrays0_eq]
  iintro ⟨H0, H4, H5⟩
  ihave H0 := (pointsTo_share (PosShare.mem_left_op_right fullShare)).1 $$ H0
  icases H0 with ⟨Hl, Hr⟩
  isplitl [Hl]; · iexact Hl
  isplitl [Hr]; · iexact Hr
  isplitl [H4]; · iexact H4
  iexact H5

/-! ## The five operations after the region -/

/-- The references the five operations after the region touch: the output rows, which they read, and the five buffers
    they write. -/
def tailS : Finset (DevRef τ sig) :=
  ([main_v5, main_cst, main_v6, main_cst_0, main_v7, main_v8] : List (Ref sig .tc)).toFinset.map
    ⟨Proc.devRef (sig := sig) (.tc : Proc τ), Proc.devRef_injective _⟩

/-- Those six buffers held whole, one by one. -/
theorem held_tailS (c : Dev nD) (W : Valuation τ sig (Elt F)) :
    (StableHlo.held (c.tc : Thread nD τ) tailS W : sProp 𝕄)
      = iprop((((c.tc : Thread nD τ).loc main_v5) ↦{fullShare} W (Proc.devRef .tc main_v5))
          ∗ (((c.tc : Thread nD τ).loc main_cst) ↦{fullShare} W (Proc.devRef .tc main_cst))
          ∗ (((c.tc : Thread nD τ).loc main_v6) ↦{fullShare} W (Proc.devRef .tc main_v6))
          ∗ (((c.tc : Thread nD τ).loc main_cst_0) ↦{fullShare} W (Proc.devRef .tc main_cst_0))
          ∗ (((c.tc : Thread nD τ).loc main_v7) ↦{fullShare} W (Proc.devRef .tc main_v7))
          ∗ (((c.tc : Thread nD τ).loc main_v8) ↦{fullShare} W (Proc.devRef .tc main_v8))) := by
  unfold StableHlo.held tailS
  rw [bigSep_map]
  exact bigSep_eq_bigSepL_of_eq [main_v5, main_cst, main_v6, main_cst_0, main_v7, main_v8] rfl (by decide) _

/-- Each of the five operations touches those six buffers only. -/
theorem hostOps1_tailS : ∀ op ∈ (hostOps1 : List (HloOp τ sig (Elt F))), op.bufs ⊆ tailS := by
  intro op hop
  simp only [List.mem_cons, List.mem_nil_iff, or_false] at hop
  rcases hop with rfl | rfl | rfl | rfl | rfl
  all_goals
    intro b hb
    simp only [StableHlo.nullary_bufs, StableHlo.binary_bufs, StableHlo.reshape_bufs, Finset.mem_insert, Finset.mem_singleton] at hb
    rcases hb with rfl | rfl | rfl <;> exact Finset.mem_map_of_mem _ (by decide)

/-- The core's buffers when the region is left: the output rows as the proof data computes them, every other buffer
    as the region found it. -/
def Wout (c : Dev nD) : Valuation τ sig (Elt F) :=
  Function.update (V0 m c) (Proc.devRef .tc main_v5) (outRows m c)

/-- There the output rows are the region's, -/
theorem Wout_v5 (c : Dev nD) : Wout m c (Proc.devRef .tc main_v5) = outRows m c := by
  unfold Wout; exact Function.update_self ..

/-- and any other buffer is as the region found it. -/
theorem Wout_ne (c : Dev nD) (r : Ref sig .tc) (h : r ≠ main_v5) : Wout m c (Proc.devRef .tc r) = V m c r := by
  unfold Wout; exact Function.update_of_ne (StableHlo.devRef_ne_of_ne h) _ _

/-- The five operations leave the output rows as they were: none writes them. -/
theorem after_v5 (c : Dev nD) : StableHlo.after hostOps1 (Wout m c) (Proc.devRef .tc main_v5) = outRows m c := by
  after_results
  exact Wout_v5 m c

/-- The result is the tail's value of the output rows. -/
theorem after_v8 (c : Dev nD) : StableHlo.after hostOps1 (Wout m c) (Proc.devRef .tc main_v8) = tailOf (outRows m c) := by
  after_results
  rw [Wout_v5]
  rfl

set_option backward.isDefEq.respectTransparency.types false in
/-- The five operations after the region: run within the output rows and the five buffers they write, they hand back the
    arrays as the region left them, the result at the tail's value of the output rows, and the second argument untouched. -/
theorem htail (c : Dev nD) (Q' : PUnit → sProp 𝕄) :
    iprop((iprop((dats m 0 c).arrays ((dats m 0 c).arrAt · cfg0.N)
            ∗ (((c.tc : Thread nD τ).loc main_v8) ↦{fullShare} (tailOf (outRows m c) : Buf (Elt F) ((c.tc : Thread nD τ).loc main_v8)))
            ∗ (((c.tc : Thread nD τ).loc main_arg1) ↦{fullShare} V m c main_arg1)) -∗ Q' ⟨⟩)
        ∗ boundary (c.tc : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  rw [arrays0_eq, Pipeline.unscopedRestP_none, unscopedRest0_eq]
  iintro ⟨Hk, Hb, ⟨Hl, Hr, H4, H5⟩, ⟨H1, -, -, -, -, Hc, H6, Hc0, H7, H8⟩⟩
  iapply (Pipeline.wp_seqs_then (fun q => (cfgs q).toPCfg (Val := Elt F)) defs₀ Variants.none c tailS [] [hostOps1]
    (fun ops ho op h => by rw [List.mem_singleton.mp ho] at h; exact hostOps1_tailS op h)
    (fun ops ho op h => by rw [List.mem_singleton.mp ho] at h; exact (List.forall_iff_forall_mem.mp hostOps1_fresh) op h)
    (Wout m c)) $$ [Hb H5 Hc H6 Hc0 H7 H8]
  · rw [held_tailS, Wout_v5, Wout_ne m c main_cst (by decide), Wout_ne m c main_v6 (by decide), Wout_ne m c main_cst_0 (by decide),
      Wout_ne m c main_v7 (by decide), Wout_ne m c main_v8 (by decide)]
    isplitl [Hb]; · iexact Hb
    isplitl [H5]; · iexact H5
    isplitl [Hc]; · iexact Hc
    isplitl [H6]; · iexact H6
    isplitl [Hc0]; · iexact Hc0
    isplitl [H7]; · iexact H7
    iexact H8
  simp only [List.flatten_cons, List.flatten_nil, List.append_nil]
  rw [Pipeline.chain_nil, wp_pure, held_tailS, after_v5, after_v8]
  iintro ⟨-, H5, -, -, -, -, H8⟩
  imodintro
  iapply Hk
  isplitl [Hl Hr H4 H5]
  · isplitl [Hl]; · iexact Hl
    isplitl [Hr]; · iexact Hr
    isplitl [H4]; · iexact H4
    iexact H5
  isplitl [H8]; · iexact H8
  iexact H1

/-! ## The region's invariant at its two ends -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

/-! ## The run -/

set_option backward.isDefEq.respectTransparency.types false in
/-- Every weakly fair execution of the program terminates without a fault; the result is the host tail's value of the
    output rows, and both arguments end as they began. -/
theorem run_main : θ_run defs (onTc (τ := τ) (main (F := F))) ⟨m, fun _ => 0, ρ⟩ (fun r => ∀ c : Dev nD,
    r.2.mem ((c.tc : Thread nD τ).loc main_v8) = tailOf (outRows m c)
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  classical
  unfold defs
  exact Pipeline.θ_run_region_pf_tail (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => iprop((((c.tc : Thread nD τ).loc main_v8) ↦{fullShare} (tailOf (outRows m c) : Buf (Elt F) ((c.tc : Thread nD τ).loc main_v8)))
      ∗ (((c.tc : Thread nD τ).loc main_arg1) ↦{fullShare} V m c main_arg1)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => s.mem ((c.tc : Thread nD τ).loc main_v8) = tailOf (outRows m c) ∧ s.mem ((c.tc : Thread nD τ).loc main_arg1) = V m c main_arg1)
    (hY := fun c s' => by
      iintro ⟨-, ⟨H8, H1⟩, HSI⟩
      icombine HSI H8 gives %h8
      icombine HSI H1 gives %h1
      imodintro
      isplitr; · ipureintro; exact ⟨Buf.eq_of_forall_mem_univ h8, Buf.eq_of_forall_mem_univ h1⟩
      iexact HSI)
    (hQ := fun s h c => ⟨(h c).2.2.1, ((h c).1 0).trans (arr0_final m c), (h c).2.2.2.trans (V_arg1 m c)⟩)

end Cert.KernelIdeal.Hand
end
-- ==== Proof.KI.Blocks.lean ====
/-
  The blocks a grid point reads, and the two output rows, index by index: point t reads rows 1024 t .. 1024 t + 1023 of
  the first half of the matrix, the same rows of the second half, and the same rows of the mask column; output row p is
  the accumulator after point 16 p + 15.
-/
import proofs.«103952_j70763881169378_1_alg».proof.Proof.KI.Launch
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Row r of point t's block, as a row of the first half and of the second half of the matrix. -/
abbrev rowLo (t : Fin cfg0.N) (r : Fin 1024) : Fin 65536 := ⟨1024 * t.val + r.val, by have := lt_of_lt_of_eq t.isLt N_0; have := r.isLt; omega⟩
abbrev rowHi (t : Fin cfg0.N) (r : Fin 1024) : Fin 65536 := ⟨1024 * t.val + r.val + 32768, by have := lt_of_lt_of_eq t.isLt N_0; have := r.isLt; omega⟩

/-! ## The three input windows -/

/-- The index maps of the three input windows over the 32 grid points: at point t the first window is on block t of the
    matrix, the second on block 32 + t (the same rows of the second half: 32 blocks of 1024 rows are 32768 rows), the
    mask's window on block t of the column; none moves along the second axis. -/
theorem blockIdx : ∀ t : Fin cfg0.N,
    win0_0.index t (0 : Fin 2) = t.val ∧ win0_0.index t (1 : Fin 2) = 0
    ∧ win0_1.index t (0 : Fin 2) = 32 + t.val ∧ win0_1.index t (1 : Fin 2) = 0
    ∧ win0_2.index t (0 : Fin 2) = t.val ∧ win0_2.index t (1 : Fin 2) = 0 :=
  (by decide +kernel : ∀ t : Fin grid0.N, _)

/-- None of the five host operations before the region writes the matrix: the region finds it as launched. -/
theorem arr0_eq (c : Dev nD) :
    (V m c main_arg0 : S65536x512.Idx → Elt F .f32) = m ((c.tc : Thread nD τ).loc main_arg0) := by
  dsimp only [V, V0]
  simp only [hostOps0, List.flatten_cons, List.flatten_nil, List.append_nil]
  after_results

/-- The mask column as the region finds it, written by those five operations: the first and the second half of the
    labels compared word by word, the resulting bit converted to a float, the 32768 floats laid out as a column. -/
theorem arr2_eq (c : Dev nD) :
    (V m c main_v4 : S32768x1.Idx → Elt F .f32)
      = shapeCast S32768x1 (uitofp (F := F) .f32 (cmpi .ne
          (extractStridedSlice S32768 ![0] (m ((c.tc : Thread nD τ).loc main_arg1)) slices_S65536_S32768_0)
          (extractStridedSlice S32768 ![32768] (m ((c.tc : Thread nD τ).loc main_arg1)) slices_S65536_S32768_32768)))
        shapeCasts_S32768_S32768x1 := by
  dsimp only [V, V0]
  simp only [hostOps0, List.flatten_cons, List.flatten_nil, List.append_nil]
  after_results
  rfl

/-- The first window's block is rows 1024 t .. of the matrix as launched: entry (r, k) of block t sits in the array at
    row t · 1024 + r and column 0 · 512 + k. -/
theorem xblk_apply (c : Dev nD) (t : Fin cfg0.N) (r : Fin 1024) (k : Fin 512) :
    xblk m c t (ix2 r k) = m ((c.tc : Thread nD τ).loc main_arg0) (ix2 (rowLo t r) k) := by
  show V m c main_arg0 (((cfg0.win 0).blk t).view.emb (ix2 r k)) = _
  rw [arr0_eq]
  obtain ⟨e0, e1, -, -, -, -⟩ := blockIdx t
  refine congrArg _ (funext fun a => Fin.ext ?_)
  match a with
  | ⟨0, _⟩ => show win0_0.index t (0 : Fin 2) * 1024 + 1 * r.val = 1024 * t.val + r.val; omega
  | ⟨1, _⟩ => show win0_0.index t (1 : Fin 2) * 512 + 1 * k.val = k.val; omega

/-- The second window's block is the same rows of the second half: entry (r, k) of block 32 + t sits at row
    (32 + t) · 1024 + r = 1024 t + r + 32768. -/
theorem yblk_apply (c : Dev nD) (t : Fin cfg0.N) (r : Fin 1024) (k : Fin 512) :
    yblk m c t (ix2 r k) = m ((c.tc : Thread nD τ).loc main_arg0) (ix2 (rowHi t r) k) := by
  show V m c main_arg0 (((cfg0.win 1).blk t).view.emb (ix2 r k)) = _
  rw [arr0_eq]
  obtain ⟨-, -, e0, e1, -, -⟩ := blockIdx t
  refine congrArg _ (funext fun a => Fin.ext ?_)
  match a with
  | ⟨0, _⟩ => show win0_1.index t (0 : Fin 2) * 1024 + 1 * r.val = 1024 * t.val + r.val + 32768; omega
  | ⟨1, _⟩ => show win0_1.index t (1 : Fin 2) * 512 + 1 * k.val = k.val; omega

/-- A compared pair of words converted to a float, over the extended reals: the comparison's bit read as a natural
    number, so one where the words differ and zero where they agree. -/
theorem maskWord (a b : BitVec 32) [d : Decidable (a ≠ b)] :
    (FloatOps.uitofp (F := Ideal) .f32 (IntOp.cmpi .ne a b) : EReal) = if a ≠ b then (1 : EReal) else 0 := by
  show (((IntOp.cmpi .ne a b).toNat : ℝ) : EReal) = _
  by_cases h : a = b
  · rw [if_neg (not_not.mpr h)]
    have : IntOp.cmpi .ne a b = 0#1 := by simp [IntOp.cmpi, h]
    rw [this]; simp
  · rw [if_pos h]
    have : IntOp.cmpi .ne a b = 1#1 := by
      have hb : (a != b) = true := bne_iff_ne.mpr h
      simp [IntOp.cmpi, hb]
    rw [this]; simp

open Classical in
/-- The mask column's block: one where the pair's labels differ, zero where they agree (over the extended reals).
    Entry (r, 0) of block t of the column is entry 1024 t + r of the compared vector (the same row-major position), and
    there the first half of the labels is read at 1024 t + r and the second half at 1024 t + r + 32768. -/
theorem mblk_apply (m : (ℓ : Loc nD τ sig) → Buf (Elt Ideal) ℓ) (c : Dev nD) (t : Fin cfg0.N) (r : Fin 1024) :
    mblk m c t (ix2 r (0 : Fin 1))
      = if m ((c.tc : Thread nD τ).loc main_arg1) (ix1 (rowLo t r)) ≠ m ((c.tc : Thread nD τ).loc main_arg1) (ix1 (rowHi t r))
        then (1 : EReal) else 0 := by
  show V m c main_v4 (((cfg0.win 2).blk t).view.emb (ix2 r (0 : Fin 1))) = _
  rw [arr2_eq]
  obtain ⟨-, -, -, -, e0, e1⟩ := blockIdx t
  have ht : t.val < 32 := lt_of_lt_of_eq t.isLt N_0
  have hr := r.isLt
  refine (shapeCast_apply _ shapeCasts_S32768_S32768x1 _ (ix1 (⟨1024 * t.val + r.val, by omega⟩ : Fin 32768)) ?_).trans ?_
  · rw [Shape.rowMajor_val_one, Shape.rowMajor_val_two]
    show 1024 * t.val + r.val = (win0_2.index t (0 : Fin 2) * 1024 + 1 * r.val) * 1 + (win0_2.index t (1 : Fin 2) * 1 + 1 * 0)
    omega
  · have a0 : extractStridedSlice S32768 ![0] (m ((c.tc : Thread nD τ).loc main_arg1)) slices_S65536_S32768_0
          (ix1 (⟨1024 * t.val + r.val, by omega⟩ : Fin 32768)) = m ((c.tc : Thread nD τ).loc main_arg1) (ix1 (rowLo t r)) :=
      extractStridedSlice_apply (s := S65536) (t := S32768) ![0] (m ((c.tc : Thread nD τ).loc main_arg1)) slices_S65536_S32768_0
        (ix1 (⟨1024 * t.val + r.val, by omega⟩ : Fin 32768)) (ix1 (rowLo t r)) fun (a : Fin 1) => by
        match a with
        | ⟨0, _⟩ => show 1024 * t.val + r.val = 0 + (1024 * t.val + r.val); omega
    have a1 : extractStridedSlice S32768 ![32768] (m ((c.tc : Thread nD τ).loc main_arg1)) slices_S65536_S32768_32768
          (ix1 (⟨1024 * t.val + r.val, by omega⟩ : Fin 32768)) = m ((c.tc : Thread nD τ).loc main_arg1) (ix1 (rowHi t r)) :=
      extractStridedSlice_apply (s := S65536) (t := S32768) ![32768] (m ((c.tc : Thread nD τ).loc main_arg1)) slices_S65536_S32768_32768
        (ix1 (⟨1024 * t.val + r.val, by omega⟩ : Fin 32768)) (ix1 (rowHi t r)) fun (a : Fin 1) => by
        match a with
        | ⟨0, _⟩ => show 1024 * t.val + r.val + 32768 = 32768 + (1024 * t.val + r.val); omega
    show FloatOps.uitofp (F := Ideal) .f32 (IntOp.cmpi .ne
        (extractStridedSlice S32768 ![0] (m ((c.tc : Thread nD τ).loc main_arg1)) slices_S65536_S32768_0 (ix1 (⟨1024 * t.val + r.val, by omega⟩ : Fin 32768)))
        (extractStridedSlice S32768 ![32768] (m ((c.tc : Thread nD τ).loc main_arg1)) slices_S65536_S32768_32768 (ix1 (⟨1024 * t.val + r.val, by omega⟩ : Fin 32768)))) = _
    rw [a0, a1]
    exact @maskWord _ _ _

/-! ## The output rows -/

/-- The output window's index map over the grid: the outer coordinate t / 16 on the first axis, zero on the other two. -/
theorem outIdx : ∀ t : Fin cfg0.N,
    win0_3.index t (0 : Fin 3) = t.val / 16 ∧ win0_3.index t (1 : Fin 3) = 0 ∧ win0_3.index t (2 : Fin 3) = 0 :=
  (by decide +kernel : ∀ t : Fin grid0.N, _)

/-- The accumulator after a point depends on the point's number only, not on the proof that it is a point. -/
theorem accAt_congr (c : Dev nD) {n n' : ℕ} (h : n = n') (hn : n < cfg0.N) (hn' : n' < cfg0.N) :
    accAt m c n hn = accAt m c n' hn' := by
  subst h; rfl

/-- What the two output rows end holding: row p the accumulator after point 16 p + 15. -/
def rowsG (c : Dev nD) : S2x1x1.Idx → Elt F .f32 := fun i =>
  accAt m c (16 * (i 0).val + 15)
    (lt_of_lt_of_eq (by have h : (i 0).val < 2 := (i 0).isLt; omega : 16 * (i 0).val + 15 < 32) (show cfg0.N = 32 from N_0).symm)
    (ix3 (0 : Fin 1) (0 : Fin 1) (0 : Fin 1))

/-- A point t that writes the output row back has t % 16 = 15, and writes the accumulator after it to row t / 16, so
    that t = 16 (t / 16) + 15: what it writes is block t of the rows above. The block has one entry. -/
theorem flushed3_eq (c : Dev nD) (t : Fin cfg0.N) (hf : (cfg0.win 3).flush t = true) :
    (dats m 0 c).flushed 3 t = ((cfg0.win 3).blk t).view.read (Elt F) (rowsG m c) := by
  have h15 : t.val % 16 = 15 := (flush0_3 t).mp hf
  obtain ⟨e0, e1, e2⟩ := outIdx t
  show (cfg0.win 3).cut (grid0.coords t) ((dats m 0 c).after 3 t) = _
  rw [after3]
  funext y
  have y0 : (y 0).val < 1 := (y 0).isLt
  have y1 : (y 1).val < 1 := (y 1).isLt
  have y2 : (y 2).val < 1 := (y 2).isLt
  show accAt m c t.val t.isLt ((cfg0.win 3).xinj (grid0.coords t) y) = rowsG m c (((cfg0.win 3).blk t).view.emb y)
  unfold rowsG
  have hn : t.val = 16 * ((((cfg0.win 3).blk t).view.emb y) 0).val + 15 := by
    show t.val = 16 * (win0_3.index t (0 : Fin 3) * 1 + 1 * (y 0).val) + 15
    omega
  have hy : ((cfg0.win 3).xinj (grid0.coords t) y : S1x1x1.Idx) = ix3 (0 : Fin 1) (0 : Fin 1) (0 : Fin 1) :=
    funext fun a => Fin.ext (by
      match a with
      | ⟨0, _⟩ => show (y 0).val = 0; omega
      | ⟨1, _⟩ => show (y 1).val = 0; omega
      | ⟨2, _⟩ => show (y 2).val = 0; omega)
  exact (congrArg (accAt m c t.val t.isLt) hy).trans (congrFun (accAt_congr m c hn _ _) _)

/-- Every output row is written back: row p by point 16 p + 15, whose block index is (p, 0, 0). -/
theorem cover3 (i : S2x1x1.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1 := (i 2).isLt
  have hN : cfg0.N = 32 := N_0
  obtain ⟨t, tv⟩ : ∃ t : Fin cfg0.N, t.val = 16 * (i 0).val + 15 := ⟨⟨16 * (i 0).val + 15, by omega⟩, rfl⟩
  obtain ⟨e0, e1, e2⟩ := outIdx t
  refine ⟨t, (flush0_3 t).mpr (by omega), ?_⟩
  show i ∈ ((View.whole main_v5).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1 ≤ (i 2).val ∧ (i 2).val < win0_3.index t (2 : Fin 3) * 1 + 1; omega

/-- Output row p is the accumulator after the last point of core p's sweep: every write-back writes its block of the
    rows above, and the write-backs cover both rows. -/
theorem outRows_apply (c : Dev nD) (p : Fin 2) :
    outRows m c (ix3 p (0 : Fin 1) (0 : Fin 1))
      = accAt m c (16 * p.val + 15) (lt_of_lt_of_eq (by have := p.isLt; omega : 16 * p.val + 15 < 32) (show cfg0.N = 32 from N_0).symm) (ix3 (0 : Fin 1) (0 : Fin 1) (0 : Fin 1)) := by
  show (dats m 0 c).arrAt 3 cfg0.N (ix3 p (0 : Fin 1) (0 : Fin 1)) = _
  rw [(dats m 0 c).arrAt_eq_of_cover 3 (rowsG m c) (flushed3_eq m c) cover3]
  rfl

end Cert.KernelIdeal.Hand

end
-- ==== Proof.Spec.lean ====
/-
  The loss both programs compute, as one function of the matrix and the labels.

  The matrix has 65536 rows of 512 entries; row j of the first half is paired with row j of the second half,
  j < 32768. A pair whose two labels differ contributes the squared distance of its rows; a pair whose labels
  agree contributes max (1 - |a - b * b|, 0), the product taken entry by entry and |.| the Euclidean norm. The loss is the sum of the
  32768 contributions divided by 131072.
-/
import Idealize.ShloMosaic.PureOps.Ideal
import Idealize.ShloMosaic.PureOps.Ideal.Laws
import Idealize.ShloMosaic.Lib.ValueIdx
import Mathlib.Algebra.BigOperators.Fin

noncomputable section

open scoped BigOperators

namespace Cert.Hand.Spec

open Idealize.ShloMosaic Idealize.ShloMosaic.ValueIdx

/-- The matrix, the labels and the result, by shape. -/
abbrev SX : Shape := ⟨2, ![65536, 512]⟩
abbrev SL : Shape := ⟨1, ![65536]⟩
abbrev SO : Shape := ⟨1, ![1]⟩

/-- The number one and the divisor 131072, as the programs spell them. -/
def one : EReal := Ideal.ofBits .f32 0x3F800000#32
def denom : EReal := Ideal.ofBits .f32 0x48000000#32

/-- Pair j's row in the first half and in the second half. -/
abbrev lo (j : Fin 32768) : Fin 65536 := ⟨j.val, by have := j.isLt; omega⟩
abbrev hi (j : Fin 32768) : Fin 65536 := ⟨j.val + 32768, by have := j.isLt; omega⟩

/-- The squared distance of pair j's rows. -/
def sqDist (X : FVec Ideal SX .f32) (j : Fin 32768) : EReal :=
  ∑ k : Fin 512, (X (ix2 (lo j) k) - X (ix2 (hi j) k)) * (X (ix2 (lo j) k) - X (ix2 (hi j) k))

/-- The margin term of pair j: one minus the norm of (first row minus the entrywise square of the second row), cut at zero. -/
def margin (X : FVec Ideal SX .f32) (j : Fin 32768) : EReal :=
  max (one - Ideal.sqrt (∑ k : Fin 512,
    (X (ix2 (lo j) k) - X (ix2 (hi j) k) * X (ix2 (hi j) k)) * (X (ix2 (lo j) k) - X (ix2 (hi j) k) * X (ix2 (hi j) k)))) 0

/-- Pair j's labels differ. -/
def differ (L : Vec Ideal SL .i32) (j : Fin 32768) : Prop := L (ix1 (lo j)) ≠ L (ix1 (hi j))

open Classical in
/-- Pair j's contribution. -/
def pair (X : FVec Ideal SX .f32) (L : Vec Ideal SL .i32) (j : Fin 32768) : EReal :=
  if differ L j then sqDist X j else margin X j

/-- The loss: the contributions' sum over 131072, as a vector of one entry. -/
def loss (X : FVec Ideal SX .f32) (L : Vec Ideal SL .i32) : FVec Ideal SO .f32 :=
  fun _ => Ideal.div (∑ j : Fin 32768, pair X L j) denom

end Cert.Hand.Spec

end
-- ==== Proof.KI.Payload.lean ====
/-
  The two payloads of the kernel body at their one index, over the extended reals.

  The accumulator is reset to zero. At a grid point the body adds to it, over the 1024 rows r of the point's blocks,
      mask r * (sum over k of (x r k - y r k)^2)  +  (1 - mask r) * max (1 - sqrt (sum over k of (x r k - y r k * y r k)^2), 0);
  with a mask entry that is one where the pair's labels differ and zero where they agree, row r's term is the pair's
  contribution to the loss.
-/
import proofs.«103952_j70763881169378_1_alg».proof.Proof.Gen.KernelIdeal.Skeleton
import proofs.«103952_j70763881169378_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx
open Cert.Hand

/-! ## Layout and sums at an index -/

/-- A vector of length a read as a column [a, 1]: entry (i, u) is entry i, since both sit at row-major position i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along axis 1 of a 1024 x 512 block, at row r: the source index over r with k put back on the reduced
    axis is (r, k). -/
theorem rowSum_apply (v : FVec Ideal S1024x512 .f32) (h : Shape.Reduces S1024x512 [1] S1024)
    (hφ : FKind.Formats .f32) (hacc : (0x00000000#32 : BitVec 32) = 0x00000000#32) (r : Fin 1024) :
    multiReduction .add [1] S1024 v 0x00000000#32 h hφ hacc (ix1 r) = ∑ k : Fin 512, v (ix2 r k) := by
  refine (Ideal.multiReduction_add_single v 0x00000000#32 h hφ hacc (ix1 r)).trans ?_
  refine Finset.sum_congr rfl fun k _ => congrArg v ?_
  funext a
  match a with
  | ⟨0, _⟩ => exact Fin.ext rfl
  | ⟨1, _⟩ => exact Fin.ext rfl

/-- The sum along axis 0 of a 1024 x 1 block, at its one column u: the source index is (r, u). -/
theorem colSum_apply (v : FVec Ideal S1024x1 .f32) (h : Shape.Reduces S1024x1 [0] S1)
    (hφ : FKind.Formats .f32) (hacc : (0x00000000#32 : BitVec 32) = 0x00000000#32) (u : Fin 1) :
    multiReduction .add [0] S1 v 0x00000000#32 h hφ hacc (ix1 u) = ∑ r : Fin 1024, v (ix2 r u) := by
  refine (Ideal.multiReduction_add_single v 0x00000000#32 h hφ hacc (ix1 u)).trans ?_
  refine Finset.sum_congr rfl fun r _ => congrArg v ?_
  funext a
  match a with
  | ⟨0, _⟩ => exact Fin.ext rfl
  | ⟨1, _⟩ => exact Fin.ext rfl

/-! ## The number one -/

/-- The word 0x3F800000 denotes one: sign 0, exponent 127, fraction 0, so (2^23 + 0) * 2^(127 - 127 - 23). -/
theorem one_eq : Spec.one = 1 := by
  unfold Spec.one
  simp [Ideal.ofBits, Ideal.ieee]
  rw [← EReal.coe_mul, ← EReal.coe_one]
  exact congrArg _ (by norm_num)

theorem one_mul' (z : EReal) : Spec.one * z = z := by rw [one_eq, one_mul]

/-- One minus one is zero on the extended reals: both are finite. -/
theorem one_sub_one : Spec.one - 1 = 0 := by
  rw [one_eq, ← EReal.coe_one, ← EReal.coe_sub, sub_self, EReal.coe_zero]

/-! ## One row's term -/

/-- Row r's term of a point's sum, from the point's two blocks x, y of the matrix and its block mk of the mask column. -/
def rowTerm (x y : FVec Ideal S1024x512 .f32) (mk : FVec Ideal S1024x1 .f32) (r : Fin 1024) : EReal :=
  mk (ix2 r (0 : Fin 1)) * (∑ k : Fin 512, (x (ix2 r k) - y (ix2 r k)) * (x (ix2 r k) - y (ix2 r k)))
    + (Spec.one - mk (ix2 r (0 : Fin 1)))
      * max (Spec.one - Ideal.sqrt (∑ k : Fin 512,
          (x (ix2 r k) - y (ix2 r k) * y (ix2 r k)) * (x (ix2 r k) - y (ix2 r k) * y (ix2 r k)))) 0

/-- Where the mask entry is one the term is the squared distance: 1 * a + (1 - 1) * b = a, with 0 * b = 0 whatever b. -/
theorem rowTerm_of_one (x y : FVec Ideal S1024x512 .f32) (mk : FVec Ideal S1024x1 .f32) (r : Fin 1024)
    (h : mk (ix2 r (0 : Fin 1)) = 1) :
    rowTerm x y mk r = ∑ k : Fin 512, (x (ix2 r k) - y (ix2 r k)) * (x (ix2 r k) - y (ix2 r k)) := by
  unfold rowTerm
  rw [h, one_mul, one_sub_one, zero_mul, add_zero]

/-- Where it is zero the term is the margin: 0 * a + (1 - 0) * b = b, with 0 * a = 0 whatever a. -/
theorem rowTerm_of_zero (x y : FVec Ideal S1024x512 .f32) (mk : FVec Ideal S1024x1 .f32) (r : Fin 1024)
    (h : mk (ix2 r (0 : Fin 1)) = 0) :
    rowTerm x y mk r = max (Spec.one - Ideal.sqrt (∑ k : Fin 512,
        (x (ix2 r k) - y (ix2 r k) * y (ix2 r k)) * (x (ix2 r k) - y (ix2 r k) * y (ix2 r k)))) 0 := by
  unfold rowTerm
  rw [h, zero_mul, zero_add, sub_zero, one_mul']

/-- So a row that holds pair j's two rows of the matrix, under a mask entry that is one where pair j's labels differ and
    zero where they agree, contributes pair j's share of the loss. -/
theorem rowTerm_eq_pair (X : FVec Ideal Spec.SX .f32) (L : Vec Ideal Spec.SL .i32)
    (x y : FVec Ideal S1024x512 .f32) (mk : FVec Ideal S1024x1 .f32) (r : Fin 1024) (j : Fin 32768)
    (hx : ∀ k : Fin 512, x (ix2 r k) = X (ix2 (Spec.lo j) k)) (hy : ∀ k : Fin 512, y (ix2 r k) = X (ix2 (Spec.hi j) k))
    [inst : Decidable (L (ix1 (Spec.lo j)) ≠ L (ix1 (Spec.hi j)))]
    (hm : mk (ix2 r (0 : Fin 1)) = if L (ix1 (Spec.lo j)) ≠ L (ix1 (Spec.hi j)) then (1 : EReal) else 0) :
    rowTerm x y mk r = Spec.pair X L j := by
  unfold Spec.pair
  by_cases hd : Spec.differ L j
  · have hd' : L (ix1 (Spec.lo j)) ≠ L (ix1 (Spec.hi j)) := hd
    rw [if_pos hd, rowTerm_of_one x y mk r (hm.trans (if_pos hd'))]
    unfold Spec.sqDist
    exact Finset.sum_congr rfl fun k _ => by rw [hx k, hy k]
  · have hd' : ¬ L (ix1 (Spec.lo j)) ≠ L (ix1 (Spec.hi j)) := hd
    rw [if_neg hd, rowTerm_of_zero x y mk r (hm.trans (if_neg hd'))]
    unfold Spec.margin
    exact congrArg (fun z => max (Spec.one - Ideal.sqrt z) 0) (Finset.sum_congr rfl fun k _ => by rw [hx k, hy k])

/-! ## The payloads at their one index -/

/-- The accumulator is reset to the zero word, which denotes zero. -/
theorem pay1_apply : k0_pay1 (F := Ideal) (ix3 (0 : Fin 1) (0 : Fin 1) (0 : Fin 1)) = 0 := by
  unfold k0_pay1
  refine (congrFun (shapeCast_self _ _) _).trans ?_
  exact Ideal.ofBits_zero_f32

/-- A point's new accumulator is the old one plus the sum of its rows' terms. The pointwise operations read at the
    index; the [1] -> [1,1] -> [1,1,1] reshapes keep the one entry; the sum down the column runs over the rows r, each
    entry (r, 0) the sum of the two products, whose factors are the mask entry, a row sum read as a column [1024, 1], and
    the constants one and zero. -/
theorem pay2_apply (x y : Vec Ideal S1024x512 .f32) (mk : Vec Ideal S1024x1 .f32) (s : Vec Ideal S1x1x1 .f32) :
    k0_pay2 x y mk s (ix3 (0 : Fin 1) (0 : Fin 1) (0 : Fin 1))
      = s (ix3 (0 : Fin 1) (0 : Fin 1) (0 : Fin 1)) + ∑ r : Fin 1024, rowTerm x y mk r := by
  unfold k0_pay2
  refine (congrFun (shapeCast_self _ _) _).trans ?_
  refine (addf_apply _ _ _).trans ?_
  refine congrArg (s (ix3 (0 : Fin 1) (0 : Fin 1) (0 : Fin 1)) + ·) ?_
  refine (shapeCast_ab_1ab_apply _ _ (0 : Fin 1) (0 : Fin 1) (0 : Fin 1)).trans ?_
  refine (shapeCast_a_1a_apply _ _ (0 : Fin 1) (0 : Fin 1)).trans ?_
  refine (colSum_apply _ _ _ _ (0 : Fin 1)).trans ?_
  refine Finset.sum_congr rfl fun r _ => ?_
  refine (addf_apply _ _ _).trans ?_
  unfold rowTerm
  refine congrArg₂ (· + ·) ?_ ?_
  · refine (mulf_apply _ _ _).trans ?_
    refine congrArg₂ (· * ·) ?_ ?_
    · exact congrFun (shapeCast_self _ _) _
    · refine (shapeCast_a_a1_apply _ _ r (0 : Fin 1)).trans ?_
      exact rowSum_apply _ _ _ _ r
  · refine (mulf_apply _ _ _).trans ?_
    refine congrArg₂ (· * ·) ?_ ?_
    · refine (subf_apply _ _ _).trans ?_
      exact congrArg (Spec.one - ·) (congrFun (shapeCast_self _ _) _)
    · refine (maximumf_apply _ _ _).trans ?_
      refine congrArg₂ max ?_ Ideal.ofBits_zero_f32
      refine (subf_apply _ _ _).trans ?_
      refine congrArg (fun z => Spec.one - Ideal.sqrt z) ?_
      refine (shapeCast_a_a1_apply _ _ r (0 : Fin 1)).trans ?_
      exact rowSum_apply _ _ _ _ r

end Cert.KernelIdeal.Hand

end
-- ==== Proof.LibAcc.lean ====
/-
  A running total kept across the ten grid points, and what it adds up to.

  The kernels keep a total in a scratch buffer: the first grid point clears it and adds its own
  block's contribution, every later point adds its block's contribution to what it finds. After the
  last point the total is the sum of the ten contributions. A block is 5000 consecutive rows of a
  50000-row array, point t owning rows 5000 t .. 5000 t + 4999, and a block's contribution is a sum
  over its rows; so the total after the last point is the sum over all 50000 rows. Commutativity and
  associativity of addition are all that is used, so this holds in any commutative monoid, the
  extended reals with their infinities included.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Hand.LibAcc

open Idealize.ShloMosaic Idealize.ShloMosaic.ValueIdx

/-! ## The recursion and its closed form -/

section Total
variable {M : Type*} [AddCommMonoid M]

/-- The total after point t: point 0 starts from zero, each later point adds to the total before. -/
def total (b : ℕ → M) : ℕ → M
  | 0 => 0 + b 0
  | t + 1 => total b t + b (t + 1)

theorem total_zero (b : ℕ → M) : total b 0 = 0 + b 0 := rfl
theorem total_succ (b : ℕ → M) (t : ℕ) : total b (t + 1) = total b t + b (t + 1) := rfl

/-- The total after point t is the sum of the contributions of points 0 .. t. -/
theorem total_eq_sum_range (b : ℕ → M) (t : ℕ) : total b t = ∑ s ∈ Finset.range (t + 1), b s := by
  induction t with
  | zero => rw [total_zero, zero_add, Finset.sum_range_one]
  | succ t ih => rw [total_succ, ih, Finset.sum_range_succ _ (t + 1)]

/-- After the tenth point: the sum over the ten points. -/
theorem total_nine (b : ℕ → M) : total b 9 = ∑ s : Fin 10, b s.val := by
  have e : total b 9 = ∑ s ∈ Finset.range 10, b s := total_eq_sum_range b 9
  rw [e, Finset.sum_range]

/-- Any sequence that obeys the recursion on the first N points has the closed form there. -/
theorem sum_of_rec {N : ℕ} (S b : ℕ → M) (h0 : S 0 = 0 + b 0) (hs : ∀ t, t + 1 < N → S (t + 1) = S t + b (t + 1))
    (t : ℕ) (ht : t < N) : S t = ∑ s ∈ Finset.range (t + 1), b s := by
  induction t with
  | zero => rw [h0, zero_add, Finset.sum_range_one]
  | succ t ih => rw [hs t ht, ih (by omega), Finset.sum_range_succ _ (t + 1)]

/-- A total of functions is the total of their values. -/
theorem total_apply {ι : Type*} (b : ℕ → ι → M) (t : ℕ) (d : ι) : total b t d = total (fun s => b s d) t := by
  induction t with
  | zero => rfl
  | succ t ih =>
    show total b t d + b (t + 1) d = total (fun s => b s d) t + b (t + 1) d
    rw [ih]

/-! ## Ten blocks of 5000 rows are the 50000 rows -/

/-- Row r of block t. -/
abbrev row (t : Fin 10) (r : Fin 5000) : Fin 50000 := ⟨5000 * t.val + r.val, by have := t.isLt; have := r.isLt; omega⟩

/-- (block, row in the block) ↦ row of the array, a bijection. -/
def rowsEquiv : Fin 10 × Fin 5000 ≃ Fin 50000 :=
  finProdFinEquiv.trans (finCongr (by norm_num : 10 * 5000 = 50000))

theorem rowsEquiv_val (t : Fin 10) (r : Fin 5000) : (rowsEquiv (t, r)).val = 5000 * t.val + r.val := by
  show r.val + 5000 * t.val = 5000 * t.val + r.val
  exact Nat.add_comm _ _

theorem rowsEquiv_apply (t : Fin 10) (r : Fin 5000) : rowsEquiv (t, r) = row t r :=
  Fin.ext (rowsEquiv_val t r)

/-- A sum over the rows is the sum over the blocks of the sums over each block's rows. -/
theorem sum_rows (x : Fin 50000 → M) : ∑ n : Fin 50000, x n = ∑ t : Fin 10, ∑ r : Fin 5000, x (row t r) := by
  rw [← Equiv.sum_comp rowsEquiv x, Fintype.sum_prod_type]
  exact Finset.sum_congr rfl fun t _ => Finset.sum_congr rfl fun r _ => congrArg x (rowsEquiv_apply t r)

/-- If point t contributes the sum over its block's rows, the total after the tenth point is the sum over all rows. -/
theorem total_rows (b : ℕ → M) (x : Fin 50000 → M) (hb : ∀ t : Fin 10, b t.val = ∑ r : Fin 5000, x (row t r)) :
    total b 9 = ∑ n : Fin 50000, x n := by
  rw [total_nine, sum_rows]
  exact Finset.sum_congr rfl fun t _ => hb t

/-- The same for a sequence given by the recursion on the ten points. -/
theorem rec_rows (S b : ℕ → M) (x : Fin 50000 → M) (h0 : S 0 = 0 + b 0)
    (hs : ∀ t, t + 1 < 10 → S (t + 1) = S t + b (t + 1)) (hb : ∀ t : Fin 10, b t.val = ∑ r : Fin 5000, x (row t r)) :
    S 9 = ∑ n : Fin 50000, x n := by
  have e : S 9 = ∑ s ∈ Finset.range 10, b s := sum_of_rec S b h0 hs 9 (by norm_num)
  rw [e, Finset.sum_range, sum_rows]
  exact Finset.sum_congr rfl fun t _ => hb t

/-- The two-index form: a total of rows of values, column by column. -/
theorem total_rows_apply {ι : Type*} (b : ℕ → ι → M) (x : Fin 50000 → ι → M)
    (hb : ∀ (t : Fin 10) (d : ι), b t.val d = ∑ r : Fin 5000, x (row t r) d) (d : ι) :
    total b 9 d = ∑ n : Fin 50000, x n d := by
  rw [total_apply]
  exact total_rows (fun s => b s d) (fun n => x n d) fun t => hb t d

end Total

/-- Over the extended reals, for an array of 50000 rows and 128 columns. -/
theorem total_rows_col (b : ℕ → Fin 128 → EReal) (x : Fin 50000 → Fin 128 → EReal)
    (hb : ∀ (t : Fin 10) (d : Fin 128), b t.val d = ∑ r : Fin 5000, x (row t r) d) (d : Fin 128) :
    total b 9 d = ∑ n : Fin 50000, x n d :=
  total_rows_apply b x hb d

/-! ## The two block contributions, as the vector operations compute them over the extended reals -/

/-- The sum over the rows of a 5000 x 128 block (an add-reduction along axis 0 from the zero word), at column d:
    the source index over column d with row r put back on the reduced axis is (r, d). -/
theorem colSum_apply (v : FVec Ideal ⟨2, ![5000, 128]⟩ .f32) (h : Shape.Reduces ⟨2, ![5000, 128]⟩ [0] ⟨1, ![128]⟩)
    (hφ : FKind.Formats .f32) (hacc : (0x00000000#32 : BitVec 32) = 0x00000000#32) (d : Fin 128) :
    multiReduction .add [0] ⟨1, ![128]⟩ v 0x00000000#32 h hφ hacc (ix1 d) = ∑ r : Fin 5000, v (ix2 r d) := by
  refine (Ideal.multiReduction_add_single v 0x00000000#32 h hφ hacc (ix1 d)).trans ?_
  refine Finset.sum_congr rfl fun r _ => congrArg v ?_
  funext a
  match a with
  | ⟨0, _⟩ => exact Fin.ext rfl
  | ⟨1, _⟩ => exact Fin.ext rfl

/-- The dimension numbers of a product that contracts the rows of both operands: contracting axes 0 and 0, free
    axes 1 and 1, no batch axes. -/
abbrev rowDims (w : DotDims.WF ⟨2, ![5000, 8]⟩ ⟨2, ![5000, 128]⟩ ⟨2, ![8, 128]⟩ [0] [0] [1] [1] [] []) :
    DotDims ⟨2, ![5000, 8]⟩ ⟨2, ![5000, 128]⟩ ⟨2, ![8, 128]⟩ := ⟨[0], [0], [1], [1], [], [], w⟩

/-- At those dimension numbers entry (g, d) of the product reads the left operand at (r, g) and the right operand
    at (r, d), r the contracted row; into a zero accumulator the entry is the sum of those products. -/
theorem rowContract_core {φ₁ φ₂ : FTy}
    (w : DotDims.WF ⟨2, ![5000, 8]⟩ ⟨2, ![5000, 128]⟩ ⟨2, ![8, 128]⟩ [0] [0] [1] [1] [] [])
    (prec : Option ContractPrecision) (oh : FVec Ideal ⟨2, ![5000, 8]⟩ φ₁) (v : FVec Ideal ⟨2, ![5000, 128]⟩ φ₂)
    (g : Fin 8) (d : Fin 128) :
    matmul (rowDims w) prec oh v (constant (F := Ideal) ⟨2, ![8, 128]⟩ .f32 0x00000000#32) (ix2 g d)
      = ∑ r : Fin 5000, oh (ix2 r g) * v (ix2 r d) := by
  show FloatOps.matmul (rowDims w) prec oh v (constant (F := Ideal) ⟨2, ![8, 128]⟩ .f32 0x00000000#32) (ix2 g d) = _
  rw [Ideal.matmul_constant_zero_apply, ← Equiv.sum_comp (contrEquiv1 (rowDims w) 5000 rfl rfl).symm]
  refine Finset.sum_congr rfl fun r _ => ?_
  have c := contrEquiv1_symm_val (rowDims w) 5000 rfl rfl r
  have l : (rowDims w).lhsIdx (ix2 g d) ((contrEquiv1 (rowDims w) 5000 rfl rfl).symm r) = ix2 r g := by
    funext ax; apply Fin.ext
    match ax with
    | ⟨0, _⟩ => simp [DotDims.lhsIdx]; exact c
    | ⟨1, _⟩ => simp [DotDims.lhsIdx]; rfl
  have rr : (rowDims w).rhsIdx (ix2 g d) ((contrEquiv1 (rowDims w) 5000 rfl rfl).symm r) = ix2 r d := by
    funext ax; apply Fin.ext
    match ax with
    | ⟨0, _⟩ => simp [DotDims.rhsIdx]; exact c
    | ⟨1, _⟩ => simp [DotDims.rhsIdx]; rfl
  rw [l, rr]

/-- A 5000 x 8 block against a 5000 x 128 block, both contracted along their rows into a zero accumulator: entry
    (g, d) of the 8 x 128 product is the sum over the rows r of (left at (r, g)) times (right at (r, d)). The
    dimension numbers are any record with contracting axes 0 and 0, free axes 1 and 1 and no batch axes. -/
theorem rowContract_apply {φ₁ φ₂ : FTy} (D : DotDims ⟨2, ![5000, 8]⟩ ⟨2, ![5000, 128]⟩ ⟨2, ![8, 128]⟩)
    (hlc : D.lhsContracting = [0]) (hrc : D.rhsContracting = [0]) (hln : D.lhsNonContracting = [1])
    (hrn : D.rhsNonContracting = [1]) (hlb : D.lhsBatch = []) (hrb : D.rhsBatch = [])
    (prec : Option ContractPrecision) (oh : FVec Ideal ⟨2, ![5000, 8]⟩ φ₁) (v : FVec Ideal ⟨2, ![5000, 128]⟩ φ₂)
    (g : Fin 8) (d : Fin 128) :
    matmul D prec oh v (constant ⟨2, ![8, 128]⟩ .f32 0x00000000#32) (ix2 g d)
      = ∑ r : Fin 5000, oh (ix2 r g) * v (ix2 r d) := by
  cases D with
  | mk lc rc ln rn lb rb wf =>
    dsimp only at hlc hrc hln hrn hlb hrb
    subst hlc hrc hln hrn hlb hrb
    exact rowContract_core wf prec oh v g d

end Cert.Hand.LibAcc

end
-- ==== Proof.KI.Value.lean ====
/-
  What the kernel region leaves in the two output rows, over the extended reals, and the result of the program.

  Point t of the 32 adds to the accumulator the sum over its 1024 rows r of pair 1024 t + r's contribution; the
  accumulator starts from zero at points 0 and 16, so output row p, written after point 16 p + 15, is the sum of the
  contributions of pairs 16384 p .. 16384 p + 16383. The host adds the two rows from zero and divides by 131072. Only
  the commutative monoid laws of addition are used to regroup the sums.
-/
import proofs.«103952_j70763881169378_1_alg».proof.Proof.KI.Blocks
import proofs.«103952_j70763881169378_1_alg».proof.Proof.KI.Payload
import proofs.«103952_j70763881169378_1_alg».proof.Proof.LibAcc
import proofs.«103952_j70763881169378_1_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Hand

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Sums over consecutive blocks of naturals -/

section Blocks
variable {M : Type*} [AddCommMonoid M]

/-- T consecutive blocks of R naturals are the first R T naturals. -/
theorem sum_blocks (g : ℕ → M) (R T : ℕ) :
    ∑ t ∈ Finset.range T, ∑ r ∈ Finset.range R, g (R * t + r) = ∑ n ∈ Finset.range (R * T), g n := by
  induction T with
  | zero => rw [Finset.sum_range_zero, Nat.mul_zero, Finset.sum_range_zero]
  | succ T ih => rw [Finset.sum_range_succ, ih, Nat.mul_succ, Finset.sum_range_add]

end Blocks

/-! ## The host's five operations at the result's one index -/

/-- An index below one is zero. -/
theorem val_zero_of_one {n : ℕ} (hn : n = 1) (x : Fin n) : x.val = 0 := by
  have := x.isLt
  omega

/-- The two rows of the output are its indices: (p, 0, 0) for p = 0, 1. -/
def rowsEquiv : Fin 2 ≃ S2x1x1.Idx where
  toFun p := ix3 p (0 : Fin 1) (0 : Fin 1)
  invFun i := ⟨(i 0).val, (i 0).isLt⟩
  left_inv p := Fin.ext rfl
  right_inv i := funext fun a => Fin.ext (match a with
    | ⟨0, _⟩ => rfl
    | ⟨1, h1⟩ => (val_zero_of_one (n := S2x1x1.size ⟨1, h1⟩) rfl (i ⟨1, h1⟩)).symm
    | ⟨2, h2⟩ => (val_zero_of_one (n := S2x1x1.size ⟨2, h2⟩) rfl (i ⟨2, h2⟩)).symm)

/-- A sum over the output's indices is the sum of its two rows. -/
theorem sum_rows2 (o : S2x1x1.Idx → EReal) :
    ∑ i : S2x1x1.Idx, o i = o (ix3 (0 : Fin 2) (0 : Fin 1) (0 : Fin 1)) + o (ix3 (1 : Fin 2) (0 : Fin 1) (0 : Fin 1)) := by
  rw [← Equiv.sum_comp rowsEquiv o, Fin.sum_univ_two]
  rfl

/-- The host sums the output over all three axes from the zero word, divides by the word of 131072, and reads the
    scalar as a vector of one entry: at that entry, the two rows' sum over 131072. -/
theorem tailOf_apply (o : FVec Ideal S2x1x1 .f32) (i : S1.Idx) :
    tailOf (F := Ideal) o i
      = Ideal.div (o (ix3 (0 : Fin 2) (0 : Fin 1) (0 : Fin 1)) + o (ix3 (1 : Fin 2) (0 : Fin 1) (0 : Fin 1))) Spec.denom := by
  unfold tailOf
  refine (shapeCast_apply _ _ i ix0 ?_).trans ?_
  · exact (val_zero_of_one (by decide) _).trans (val_zero_of_one (by decide) _).symm
  · show Ideal.div (Ideal.hostReduceAdd reducesTo_S2x1x1_S_d0_1_2 o (Ideal.ofBits .f32 0x00000000#32) ix0) Spec.denom = _
    refine congrArg (fun z => Ideal.div z Spec.denom) ?_
    refine (Ideal.hostReduceAdd_total reducesTo_S2x1x1_S_d0_1_2 (fun b => b.elim0) o _ ix0).trans ?_
    rw [Ideal.ofBits_zero_f32, zero_add, sum_rows2]

/-! ## The accumulator, point by point -/

section Acc
variable (m : (ℓ : Loc nD τ sig) → Buf (Elt Ideal) ℓ) (c : Dev nD)

/-- The matrix and the labels the program was launched on. -/
abbrev matX : FVec Ideal Spec.SX .f32 := m ((c.tc : Thread nD τ).loc main_arg0)
abbrev labL : Vec Ideal Spec.SL .i32 := m ((c.tc : Thread nD τ).loc main_arg1)

/-- Pair n's contribution, for every natural n (zero past the last pair). -/
def contrib (n : ℕ) : EReal := if h : n < 32768 then Spec.pair (matX m c) (labL m c) ⟨n, h⟩ else 0

theorem contrib_lt (n : ℕ) (h : n < 32768) : contrib m c n = Spec.pair (matX m c) (labL m c) ⟨n, h⟩ := by
  unfold contrib
  exact dif_pos h

/-- The sum of the contributions of block t's pairs 1024 t .. 1024 t + 1023. -/
def blockSum (t : ℕ) : EReal := ∑ r : Fin 1024, contrib m c (1024 * t + r.val)

/-- The accumulator's one word after point n, for every natural n (zero past the last point). -/
def accT (n : ℕ) : EReal :=
  if h : n < cfg0.N then accAt m c n h (ix3 (0 : Fin 1) (0 : Fin 1) (0 : Fin 1)) else 0

theorem lt_N (n : ℕ) (hn : n < 32) : n < cfg0.N := lt_of_lt_of_eq hn (show cfg0.N = 32 from N_0).symm

theorem accAt_irrel (n n' : ℕ) (e : n = n') (h : n < cfg0.N) (h' : n' < cfg0.N) : accAt m c n h = accAt m c n' h' := by
  subst e; rfl

/-- At point t the rows' terms are the contributions of block t's pairs: row r of the point's blocks holds pair
    1024 t + r's two rows of the matrix, and the mask entry is one where that pair's labels differ, else zero. -/
theorem pointSum (t : Fin cfg0.N) :
    ∑ r : Fin 1024, rowTerm (xblk m c t) (yblk m c t) (mblk m c t) r = blockSum m c t.val := by
  have ht : t.val < 32 := lt_of_lt_of_eq t.isLt N_0
  refine Finset.sum_congr rfl fun r _ => ?_
  have hj : 1024 * t.val + r.val < 32768 := by have := r.isLt; omega
  refine (rowTerm_eq_pair (matX m c) (labL m c) (xblk m c t) (yblk m c t) (mblk m c t) r ⟨1024 * t.val + r.val, hj⟩
    (fun k => xblk_apply m c t r k) (fun k => yblk_apply m c t r k) (mblk_apply m c t r)).trans ?_
  exact (contrib_lt m c _ hj).symm

/-- Where the inner coordinate is 0 the accumulator restarts: zero plus the block's sum. -/
theorem accT_reset (n : ℕ) (hn : n < 32) (h : n % 16 = 0) : accT m c n = 0 + blockSum m c n := by
  have hN : n < cfg0.N := lt_N n hn
  unfold accT
  rw [dif_pos hN]
  refine (congrFun (accAt_reset m c ⟨n, hN⟩ h) _).trans ?_
  refine (pay2_apply _ _ _ _).trans ?_
  exact congrArg₂ (· + ·) pay1_apply (pointSum m c ⟨n, hN⟩)

/-- Elsewhere it grows by the block's sum. -/
theorem accT_step (n : ℕ) (hn : n + 1 < 32) (h : ¬(n + 1) % 16 = 0) :
    accT m c (n + 1) = accT m c n + blockSum m c (n + 1) := by
  have hN1 : n + 1 < cfg0.N := lt_N (n + 1) hn
  have hN0 : n < cfg0.N := lt_N n (by omega)
  unfold accT
  rw [dif_pos hN1, dif_pos hN0]
  refine (congrFun (accAt_step m c ⟨n + 1, hN1⟩ h) _).trans ?_
  refine (pay2_apply _ _ _ _).trans ?_
  refine congrArg₂ (· + ·) ?_ (pointSum m c ⟨n + 1, hN1⟩)
  exact congrFun (accAt_irrel m c _ _ (Nat.add_sub_cancel n 1) _ _) _

/-- After the sixteenth point of a sweep that starts at point a: the sum of the sweep's sixteen blocks. -/
theorem accT_sweep (a : ℕ) (ha : a + 15 < 32) (h16 : a % 16 = 0) :
    accT m c (a + 15) = ∑ i ∈ Finset.range 16, blockSum m c (a + i) := by
  have e := LibAcc.sum_of_rec (N := 16) (fun i => accT m c (a + i)) (fun i => blockSum m c (a + i))
    (accT_reset m c (a + 0) (by omega) (by omega))
    (fun t ht => accT_step m c (a + t) (by omega) (by omega)) 15 (by norm_num)
  exact e

/-- Output row p is the accumulator after point 16 p + 15. -/
theorem outRow_eq (p : Fin 2) : outRows m c (ix3 p (0 : Fin 1) (0 : Fin 1)) = accT m c (16 * p.val + 15) := by
  have hN : 16 * p.val + 15 < cfg0.N := lt_N _ (by have := p.isLt; omega)
  unfold accT
  rw [dif_pos hN]
  exact outRows_apply m c p

/-- The two output rows add up to the sum of all the pairs' contributions. -/
theorem rows_total :
    outRows m c (ix3 (0 : Fin 2) (0 : Fin 1) (0 : Fin 1)) + outRows m c (ix3 (1 : Fin 2) (0 : Fin 1) (0 : Fin 1))
      = ∑ j : Fin 32768, Spec.pair (matX m c) (labL m c) j := by
  rw [outRow_eq m c 0, outRow_eq m c 1]
  have e0 : accT m c (16 * (0 : Fin 2).val + 15) = ∑ i ∈ Finset.range 16, blockSum m c i := by
    refine (accT_sweep m c 0 (by norm_num) (by norm_num)).trans ?_
    exact Finset.sum_congr rfl fun i _ => by rw [Nat.zero_add]
  have e1 : accT m c (16 * (1 : Fin 2).val + 15) = ∑ i ∈ Finset.range 16, blockSum m c (16 + i) :=
    accT_sweep m c 16 (by norm_num) (by norm_num)
  rw [e0, e1, ← Finset.sum_range_add (blockSum m c) 16 16]
  have eb : ∀ t, blockSum m c t = ∑ r ∈ Finset.range 1024, contrib m c (1024 * t + r) := fun t =>
    (Finset.sum_range fun r => contrib m c (1024 * t + r)).symm
  rw [Finset.sum_congr rfl fun t _ => eb t, sum_blocks (contrib m c) 1024 (16 + 16), Finset.sum_range]
  exact Finset.sum_congr rfl fun j _ => contrib_lt m c j.val j.isLt

end Acc

/-- The program's result is the loss of the matrix and the labels it was launched on. -/
theorem kernel_result (m : (ℓ : Loc nD τ sig) → Buf (Elt Ideal) ℓ) (c : Dev nD) :
    tailOf (F := Ideal) (outRows m c)
      = Cert.Hand.Spec.loss (m ((c.tc : Thread nD τ).loc main_arg0)) (m ((c.tc : Thread nD τ).loc main_arg1)) := by
  refine funext fun i => ?_
  refine (tailOf_apply (outRows m c) i).trans ?_
  exact congrArg (fun z => Ideal.div z Spec.denom) (rows_total m c)

end Cert.KernelIdeal.Hand

end
-- ==== Proof.RefValue.lean ====
/-
  The reference's result is the loss: the reference's run read one operation at a time.

  The reference slices the matrix into its first and second half (rows j and j + 32768), forms for every pair j
  the squared distance of the two rows and the margin term max (1 - |a - b * b|, 0), selects between them by the
  one-bit comparison of the pair's two labels, sums the 32768 selected values and divides by 131072. Read at the
  one index of the result this is the specification's loss, pair by pair.
-/
import proofs.«103952_j70763881169378_1_alg».proof.Proof.Gen.ReferenceIdeal.Run
import proofs.«103952_j70763881169378_1_alg».proof.Proof.Gen.ReferenceIdeal.Read
import proofs.«103952_j70763881169378_1_alg».proof.Proof.Spec

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

/-- The reference's composed term of its two arguments, as its run states it. -/
def refTerm (x : FVec Ideal S65536x512 .f32) (l : Vec Ideal S65536 .i32) : FVec Ideal S1 .f32 :=
  shapeCast S1 (Host.divf (F := Ideal) (Host.reduceAdd (F := Ideal) (select (cmpi .ne (extractStridedSlice S32768 ![0] l slices_S65536_S32768_0) (extractStridedSlice S32768 ![32768] l slices_S65536_S32768_32768)) (Host.reduceAdd (mulf (subf (extractStridedSlice S32768x512 ![0, 0] x slices_S65536x512_S32768x512_0_0) (extractStridedSlice S32768x512 ![32768, 0] x slices_S65536x512_S32768x512_32768_0)) (subf (extractStridedSlice S32768x512 ![0, 0] x slices_S65536x512_S32768x512_0_0) (extractStridedSlice S32768x512 ![32768, 0] x slices_S65536x512_S32768x512_32768_0))) (constant S_ .f32 0x00000000#32) reducesTo_S32768x512_S32768_d1 h_S_) (maximumf (subf (broadcastInDim S32768 ![] bcast_S_S32768 (constant S_ .f32 0x3F800000#32)) (Host.sqrt (Host.reduceAdd (mulf (subf (extractStridedSlice S32768x512 ![0, 0] x slices_S65536x512_S32768x512_0_0) (mulf (extractStridedSlice S32768x512 ![32768, 0] x slices_S65536x512_S32768x512_32768_0) (extractStridedSlice S32768x512 ![32768, 0] x slices_S65536x512_S32768x512_32768_0))) (subf (extractStridedSlice S32768x512 ![0, 0] x slices_S65536x512_S32768x512_0_0) (mulf (extractStridedSlice S32768x512 ![32768, 0] x slices_S65536x512_S32768x512_32768_0) (extractStridedSlice S32768x512 ![32768, 0] x slices_S65536x512_S32768x512_32768_0)))) (constant S_ .f32 0x00000000#32) reducesTo_S32768x512_S32768_d1 h_S_))) (broadcastInDim S32768 ![] bcast_S_S32768 (constant S_ .f32 0x00000000#32)))) (constant S_ .f32 0x00000000#32) reducesTo_S32768_S_d0 h_S_) (constant S_ .f32 0x48000000#32)) shapeCasts_S_S1

open Idealize.ShloMosaic.ValueIdx
open scoped BigOperators

/-! ## Indices: a rank-1 index set is its one coordinate's range -/

/-- The 32768 pair indices are the range of the one coordinate. -/
def pairEquiv : S32768.Idx ≃ Fin 32768 where
  toFun i := i 0
  invFun j := ix1 j
  left_inv i := (eq_ix1 i).symm
  right_inv _ := rfl

/-- A sum over the pair indices is the sum over the coordinate. -/
theorem sum_pairs (f : S32768.Idx → EReal) : ∑ i, f i = ∑ j : Fin 32768, f (ix1 j) := by
  rw [← Equiv.sum_comp pairEquiv.symm f]
  rfl

/-! ## The slices' rows: entry k of pair j's row in the first half and in the second half -/

/-- Entry (j, k) of the first half's slice is entry (j, k) of the matrix. -/
theorem row_lo (j : Fin 32768) (k : Fin 512) :
    Read.idx_main_v0 (Read.idx_main_v7 (ix1 j) k) = ix2 (Cert.Hand.Spec.lo j) k :=
  funext fun a => Fin.ext (by match a with | ⟨0, _⟩ => rfl | ⟨1, _⟩ => rfl)

/-- Entry (j, k) of the second half's slice is entry (j + 32768, k) of the matrix. -/
theorem row_hi (j : Fin 32768) (k : Fin 512) :
    Read.idx_main_v1 (Read.idx_main_v7 (ix1 j) k) = ix2 (Cert.Hand.Spec.hi j) k :=
  funext fun a => Fin.ext (by match a with | ⟨0, _⟩ => exact Nat.add_comm _ _ | ⟨1, _⟩ => rfl)

/-- The same two rows under the second sum's index function. -/
theorem row_lo' (j : Fin 32768) (k : Fin 512) :
    Read.idx_main_v0 (Read.idx_main_v11 (ix1 j) k) = ix2 (Cert.Hand.Spec.lo j) k :=
  funext fun a => Fin.ext (by match a with | ⟨0, _⟩ => rfl | ⟨1, _⟩ => rfl)
theorem row_hi' (j : Fin 32768) (k : Fin 512) :
    Read.idx_main_v1 (Read.idx_main_v11 (ix1 j) k) = ix2 (Cert.Hand.Spec.hi j) k :=
  funext fun a => Fin.ext (by match a with | ⟨0, _⟩ => exact Nat.add_comm _ _ | ⟨1, _⟩ => rfl)

/-- Label j of the first half's slice is label j; of the second half's, label j + 32768. -/
theorem lab_lo (j : Fin 32768) : Read.idx_main_v2 (ix1 j) = ix1 (Cert.Hand.Spec.lo j) :=
  funext fun a => Fin.ext (by match a with | ⟨0, _⟩ => rfl)
theorem lab_hi (j : Fin 32768) : Read.idx_main_v3 (ix1 j) = ix1 (Cert.Hand.Spec.hi j) :=
  funext fun a => Fin.ext (by match a with | ⟨0, _⟩ => exact Nat.add_comm _ _)

/-! ## One pair -/

/-- The squared-distance stage at pair j is the specification's squared distance. -/
theorem sqDist_eq (x : FVec Ideal S65536x512 .f32) (j : Fin 32768) :
    Read.val_main_v7 (F := Ideal) x (ix1 j) = Cert.Hand.Spec.sqDist x j := by
  rw [Read.val_main_v7_apply, Read.val_main_cst_apply]
  simp only [Read.val_main_v6_apply, Read.val_main_v5_apply, Read.val_main_v0_apply, Read.val_main_v1_apply,
    row_lo, row_hi, Ideal.ofBits_def, Ideal.ofBits_zero_f32, zero_add, Ideal.mulf_def, Ideal.subf_def]
  rfl

/-- The margin stage at pair j is the specification's margin term. -/
theorem margin_eq (x : FVec Ideal S65536x512 .f32) (j : Fin 32768) :
    Read.val_main_v15 (F := Ideal) x (ix1 j) = Cert.Hand.Spec.margin x j := by
  rw [Read.val_main_v15_apply, Read.val_main_v14_apply, Read.val_main_v13_apply, Read.val_main_cst_1_apply,
    Read.val_main_v12_apply, Read.val_main_v11_apply, Read.val_main_cst_0_apply, Read.val_main_call0_v0_apply,
    Read.val_main_call0_cst_apply]
  simp only [Read.val_main_v10_apply, Read.val_main_v9_apply, Read.val_main_v8_apply, Read.val_main_v0_apply,
    Read.val_main_v1_apply, row_lo', row_hi', Ideal.ofBits_def, Ideal.ofBits_zero_f32, zero_add, Ideal.mulf_def,
    Ideal.subf_def, Ideal.maximumf_def, Ideal.hostUnary_sqrt_def]
  rfl

/-- The selected value at pair j is the pair's contribution: the comparison's bit is 1 exactly where the two labels
    differ, and the select reads the squared distance on the bit 1 and the margin term on the bit 0. -/
theorem pair_eq (x : FVec Ideal S65536x512 .f32) (l : Vec Ideal S65536 .i32) (j : Fin 32768) :
    Read.val_main_v16 (F := Ideal) x l (ix1 j) = Cert.Hand.Spec.pair x l j := by
  rw [Read.val_main_v16_apply, Read.val_main_v4_apply, Read.val_main_v2_apply, Read.val_main_v3_apply, lab_lo, lab_hi,
    sqDist_eq, margin_eq]
  unfold Cert.Hand.Spec.pair
  by_cases h : Cert.Hand.Spec.differ l j
  · rw [if_pos h, IntOp.cmpi_ne.mpr h]
    exact select_one _ _
  · rw [if_neg h, eq_zero_of_ne_one fun e => h (IntOp.cmpi_ne.mp e)]
    exact select_zero _ _

/-! ## The result -/

/-- The scalar's one index and the one index of the one-entry vector have the same row-major position, 0. -/
theorem pos_eq (i : S1.Idx) : (S_.rowMajor ix0).val = (S1.rowMajor i).val := by
  rw [Shape.rowMajor_val_one]
  have h0 : (i 0).val < 1 := (i 0).isLt
  have h1 : (S_.rowMajor ix0).val = 0 := Shape.rowMajorPi_zero _ _
  omega

/-- Index by index the reference's term is the loss. -/
theorem reference_result (x : FVec Ideal S65536x512 .f32) (l : Vec Ideal S65536 .i32) :
    refTerm x l = Cert.Hand.Spec.loss x l := by
  funext i
  show Read.val_main_v19 (F := Ideal) x l i = _
  unfold Read.val_main_v19
  rw [shapeCast_apply _ shapeCasts_S_S1 i ix0 (pos_eq i), Read.val_main_v18_apply, Read.val_main_v17_apply,
    Read.val_main_cst_2_apply, Read.val_main_cst_3_apply, sum_pairs]
  simp only [pair_eq, Ideal.hostDivf_def, Ideal.ofBits_def, Ideal.ofBits_zero_f32, zero_add]
  rfl

end Cert.ReferenceIdeal.RefValue

end
-- ==== Proof.lean ====
/-
  The certificate's claims from their parts.

  Both kernel programs run to the end with their arguments unchanged, and the idealized one ends with the loss of the
  matrix and the labels (the region's two output rows summed and divided by 131072); the reference's run ends with its
  composed term, which is the same loss; the idealization rewrote nothing.
-/
import proofs.«103952_j70763881169378_1_alg».proof.Defs
import proofs.«103952_j70763881169378_1_alg».proof.Proof.Gen.Kernel
import proofs.«103952_j70763881169378_1_alg».proof.Proof.Gen.KernelIdeal
import proofs.«103952_j70763881169378_1_alg».proof.Proof.Gen.ReferenceIdeal
import proofs.«103952_j70763881169378_1_alg».proof.Proof.Gen.Pre_finite_inputs
import proofs.«103952_j70763881169378_1_alg».proof.Proof.Gen.ReferenceIdeal.Run
import proofs.«103952_j70763881169378_1_alg».proof.Proof.Gen.ReferenceIdeal.Read
import proofs.«103952_j70763881169378_1_alg».proof.Proof.K.Launch
import proofs.«103952_j70763881169378_1_alg».proof.Proof.KI.Launch
import proofs.«103952_j70763881169378_1_alg».proof.Proof.KI.Value
import proofs.«103952_j70763881169378_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ =>
  (θ_run Cert.Kernel.defs _ _).mono (fun _ h c => ⟨(h c).2.1, (h c).2.2⟩) (Cert.Kernel.Hand.run_main (F := Bits) m ρ)

/-- So does the idealized kernel. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the loss of the arguments they agree on. -/
theorem algebraic : Cert.algebraic_KernelIdeal_ReferenceIdeal := by
  intro m ρ m' ρ' _ hagree
  refine ⟨fun c => Cert.Hand.Spec.loss (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.kernel_result m c), (h c).2.1, (h c).2.2⟩)
      (Cert.KernelIdeal.Hand.run_main (F := Ideal) m ρ)
  · refine (θ_run Cert.ReferenceIdeal.defs _ _).mono (fun _ h c => ⟨(h c).1.trans ?_, (h c).2.1, (h c).2.2⟩)
      (Cert.ReferenceIdeal.Value.run (F := Ideal) m' ρ')
    refine (Cert.ReferenceIdeal.RefValue.reference_result _ _).trans ?_
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
